-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x80 : S_.BroadcastsInDim S128x80 (![] : Fin 0 → Fin S128x80.rank)
  reducesTo_S128x80_S_d0_1 : S128x80.ReducesTo [0, 1] S_
  bcast_S_S80 : S_.BroadcastsInDim S80 (![] : Fin 0 → Fin S80.rank)
  reducesTo_S80_S_d0 : S80.ReducesTo [0] S_
  bcast_S_S80x4 : S_.BroadcastsInDim S80x4 (![] : Fin 0 → Fin S80x4.rank)
  reducesTo_S80x4_S_d0_1 : S80x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S80x4 .f32) (main_arg5 : FVec F S4 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80x4 .f32 := Host.absf main_arg4
  let main_cst_6 : FVec F S_ .f32 := constant S_ .f32 0x7F800000#32
  let main_v20 : FVec F S80x4 .f32 := broadcastInDim S80x4 ![] bcast_S_S80x4 main_cst_6
  let main_v21 : IVec S80x4 1 := cmpf .olt main_v19 main_v20
  let main_c_7 : IVec S_ 1 := constantI S_ 1 1#1
  let main_v22 : IVec S_ 1 := (fun x v => Host.reduce IntOp.andi x v reducesTo_S80x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x80 .f32) (main_arg3 : FVec F S80 .f32) (main_arg4 : FVec F S80x4 .f32) (main_arg5 : FVec F S4 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x80 .f32 := Host.absf main_arg2
  let main_cst_2 : FVec F S_ .f32 := constant S_ .f32 0x7F800000#32
  let main_v10 : FVec F S128x80 .f32 := broadcastInDim S128x80 ![] bcast_S_S128x80 main_cst_2
  let main_v11 : IVec S128x80 1 := cmpf .olt main_v9 main_v10
  let main_c_3 : IVec S_ 1 := constantI S_ 1 1#1
  let main_v12 : IVec S_ 1 := (fun x v => Host.reduce IntOp.andi x v reducesTo_S128x80_S_d0_1 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S1x80 : Shape := ⟨2, ![1, 80]⟩
abbrev S1x4 : Shape := ⟨2, ![1, 4]⟩
abbrev S10000x4 : Shape := ⟨2, ![10000, 4]⟩
abbrev S400x10000 : Shape := ⟨2, ![400, 10000]⟩
abbrev S400x4 : Shape := ⟨2, ![400, 4]⟩
abbrev S10000x80 : Shape := ⟨2, ![10000, 80]⟩
abbrev S400x80 : Shape := ⟨2, ![400, 80]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x80, .f32⟩
  | .hbm, ⟨3, _⟩ => ⟨S80, .f32⟩
  | .hbm, ⟨4, _⟩ => ⟨S80x4, .f32⟩
  | .hbm, ⟨5, _⟩ => ⟨S4, .f32⟩
  | .hbm, ⟨6, _⟩ => ⟨S1x80, .f32⟩
  | .hbm, ⟨7, _⟩ => ⟨S1x4, .f32⟩
  | .hbm, ⟨8, _⟩ => ⟨S10000x4, .f32⟩
  | .local _ .vmem, ⟨0, _⟩ => ⟨S10000x128, .f32⟩
  | .local _ .vmem, ⟨1, _⟩ => ⟨S128x80, .f32⟩
  | .local _ .vmem, ⟨2, _⟩ => ⟨S1x80, .f32⟩
  | .local _ .vmem, ⟨3, _⟩ => ⟨S80x4, .f32⟩
  | .local _ .vmem, ⟨4, _⟩ => ⟨S1x4, .f32⟩
  | .local _ .vmem, ⟨5, _⟩ => ⟨S400x10000, .f32⟩
  | .local _ .vmem, ⟨6, _⟩ => ⟨S400x10000, .f32⟩
  | .local _ .vmem, ⟨7, _⟩ => ⟨S400x4, .f32⟩
  | .local _ .vmem, ⟨8, _⟩ => ⟨S400x4, .f32⟩
  | .local _ .vmem, ⟨9, _⟩ => ⟨S10000x80, .f32⟩
  | .local _ .vmem, ⟨10, _⟩ => ⟨S10000x4, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S80x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S400x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S80_S1x80 : S80.ShapeCasts S1x80
  shapeCasts_S4_S1x4 : S4.ShapeCasts S1x4
  inb_S10000x128_S10000x128_0_0 : ∀ a, (![0, 0] : Fin 2 → Nat) a + S10000x128.size a ≤ S10000x128.size a
  h_S10000x128 : 0 < S10000x128.numel
  inb_S128x80_S128x80_0_0 : ∀ a, (![0, 0] : Fin 2 → Nat) a + S128x80.size a ≤ S128x80.size a
  h_S128x80 : 0 < S128x80.numel
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  inb_S400x10000_S400x10000_0_0 : ∀ a, (![0, 0] : Fin 2 → Nat) a + S400x10000.size a ≤ S400x10000.size a
  h_S400x10000 : 0 < S400x10000.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S400x80 : S1x80.Broadcasts S400x80
  inb_S80x4_S80x4_0_0 : ∀ a, (![0, 0] : Fin 2 → Nat) a + S80x4.size a ≤ S80x4.size a
  h_S80x4 : 0 < S80x4.numel
  h_S400x4 : 0 < S400x4.numel
  shapeCasts_S400x4_S400x4 : S400x4.ShapeCasts S400x4
  inb_S10000x4_S10000x4_0_0 : ∀ a, (![0, 0] : Fin 2 → Nat) a + S10000x4.size a ≤ S10000x4.size a
  h_S10000x4 : 0 < S10000x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S400x4 : S1x4.Broadcasts S400x4
  inb_S400x4_S400x4_0_0 : ∀ a, (![0, 0] : Fin 2 → Nat) a + S400x4.size a ≤ S400x4.size a
  dot_S10000x128_S128x80_S10000x80_1_0_0_1_n_n_wf : DotDims.WF S10000x128 S128x80 S10000x80 [1] [0] [0] [1] [] []
  dot_S400x10000_S10000x80_S400x80_1_0_0_1_n_n_wf : DotDims.WF S400x10000 S10000x80 S400x80 [1] [0] [0] [1] [] []
  dot_S400x80_S80x4_S400x4_1_0_0_1_n_n_wf : DotDims.WF S400x80 S80x4 S400x4 [1] [0] [0] [1] [] []
  dot_S400x10000_S10000x4_S400x4_1_0_0_1_n_n_wf : DotDims.WF S400x10000 S10000x4 S400x4 [1] [0] [0] [1] [] []
  hrank0 : 0 < grid0.rank
  k0_off1_inb : ∀ i : grid0.Coords, ∀ (k0_h2 : k0_cond2 i = 1#1), ∀ a, (k0_off1 i) a + S400x4.size a ≤ S10000x4.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x80.size a ≤ S128x80.size a
  hwx0_1 : ∀ i : grid0.Coords, EltTy.bits .f32 = 32 ∨ (Rect.block (s := S128x80) S128x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x4.size a ≤ S80x4.size a
  hwx0_3 : ∀ i : grid0.Coords, EltTy.bits .f32 = 32 ∨ (Rect.block (s := S80x4) S80x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x4.size a ≤ S10000x4.size a
  hwx0_6 : ∀ i : grid0.Coords, EltTy.bits .f32 = 32 ∨ (Rect.block (s := S10000x4) S400x4.size (cc0_transform_6 i) (hinb0_6 i)).WholeWords (EltTy.packing .f32)

variable [Facts₀]

def dot_S10000x128_S128x80_S10000x80_1_0_0_1_n_n : DotDims S10000x128 S128x80 S10000x80 where
  lhsContracting := [1]
  rhsContracting := [0]
  lhsNonContracting := [0]
  rhsNonContracting := [1]
  lhsBatch := []
  rhsBatch := []
  wf := dot_S10000x128_S128x80_S10000x80_1_0_0_1_n_n_wf
def dot_S400x10000_S10000x80_S400x80_1_0_0_1_n_n : DotDims S400x10000 S10000x80 S400x80 where
  lhsContracting := [1]
  rhsContracting := [0]
  lhsNonContracting := [0]
  rhsNonContracting := [1]
  lhsBatch := []
  rhsBatch := []
  wf := dot_S400x10000_S10000x80_S400x80_1_0_0_1_n_n_wf
def dot_S400x80_S80x4_S400x4_1_0_0_1_n_n : DotDims S400x80 S80x4 S400x4 where
  lhsContracting := [1]
  rhsContracting := [0]
  lhsNonContracting := [0]
  rhsNonContracting := [1]
  lhsBatch := []
  rhsBatch := []
  wf := dot_S400x80_S80x4_S400x4_1_0_0_1_n_n_wf
def dot_S400x10000_S10000x4_S400x4_1_0_0_1_n_n : DotDims S400x10000 S10000x4 S400x4 where
  lhsContracting := [1]
  rhsContracting := [0]
  lhsNonContracting := [0]
  rhsNonContracting := [1]
  lhsBatch := []
  rhsBatch := []
  wf := dot_S400x10000_S10000x4_S400x4_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S80x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x80 : Shape := ⟨2, ![128, 80]⟩
abbrev S80 : Shape := ⟨1, ![80]⟩
abbrev S80x4 : Shape := ⟨2, ![80, 4]⟩
abbrev S4 : Shape := ⟨1, ![4]⟩
abbrev S10000x80 : Shape := ⟨2, ![10000, 80]⟩
abbrev S1x80 : Shape := ⟨2, ![1, 80]⟩
abbrev S_ : Shape := ⟨0, ![]⟩
abbrev S10000x4 : Shape := ⟨2, ![10000, 4]⟩
abbrev S1x4 : Shape := ⟨2, ![1, 4]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x80, .f32⟩
  | .hbm, ⟨3, _⟩ => ⟨S80, .f32⟩
  | .hbm, ⟨4, _⟩ => ⟨S80x4, .f32⟩
  | .hbm, ⟨5, _⟩ => ⟨S4, .f32⟩
  | .hbm, ⟨6, _⟩ => ⟨S10000x80, .f32⟩
  | .hbm, ⟨7, _⟩ => ⟨S10000x80, .f32⟩
  | .hbm, ⟨8, _⟩ => ⟨S1x80, .f32⟩
  | .hbm, ⟨9, _⟩ => ⟨S10000x80, .f32⟩
  | .hbm, ⟨10, _⟩ => ⟨S10000x80, .f32⟩
  | .hbm, ⟨11, _⟩ => ⟨S_, .f32⟩
  | .hbm, ⟨12, _⟩ => ⟨S10000x80, .f32⟩
  | .hbm, ⟨13, _⟩ => ⟨S10000x80, .f32⟩
  | .hbm, ⟨14, _⟩ => ⟨S10000x4, .f32⟩
  | .hbm, ⟨15, _⟩ => ⟨S10000x4, .f32⟩
  | .hbm, ⟨16, _⟩ => ⟨S1x4, .f32⟩
  | .hbm, ⟨17, _⟩ => ⟨S10000x4, .f32⟩
  | .hbm, ⟨18, _⟩ => ⟨S10000x4, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S80_S1x80_1 : S80.BroadcastsInDim S1x80 (![1] : Fin 1 → Fin S1x80.rank)
  bcast_S1x80_S10000x80_0_1 : S1x80.BroadcastsInDim S10000x80 (![0, 1] : Fin 2 → Fin S10000x80.rank)
  bcast_S_S10000x80 : S_.BroadcastsInDim S10000x80 (![] : Fin 0 → Fin S10000x80.rank)
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  dot_S10000x128_S128x80_S10000x80_1_0_0_1_n_n_wf : DotDims.WF S10000x128 S128x80 S10000x80 [1] [0] [0] [1] [] []
  dot_S10000x10000_S10000x80_S10000x80_1_0_0_1_n_n_wf : DotDims.WF S10000x10000 S10000x80 S10000x80 [1] [0] [0] [1] [] []
  dot_S10000x80_S80x4_S10000x4_1_0_0_1_n_n_wf : DotDims.WF S10000x80 S80x4 S10000x4 [1] [0] [0] [1] [] []
  dot_S10000x10000_S10000x4_S10000x4_1_0_0_1_n_n_wf : DotDims.WF S10000x10000 S10000x4 S10000x4 [1] [0] [0] [1] [] []

variable [Facts₀]

def dot_S10000x128_S128x80_S10000x80_1_0_0_1_n_n : DotDims S10000x128 S128x80 S10000x80 where
  lhsContracting := [1]
  rhsContracting := [0]
  lhsNonContracting := [0]
  rhsNonContracting := [1]
  lhsBatch := []
  rhsBatch := []
  wf := dot_S10000x128_S128x80_S10000x80_1_0_0_1_n_n_wf
def dot_S10000x10000_S10000x80_S10000x80_1_0_0_1_n_n : DotDims S10000x10000 S10000x80 S10000x80 where
  lhsContracting := [1]
  rhsContracting := [0]
  lhsNonContracting := [0]
  rhsNonContracting := [1]
  lhsBatch := []
  rhsBatch := []
  wf := dot_S10000x10000_S10000x80_S10000x80_1_0_0_1_n_n_wf
def dot_S10000x80_S80x4_S10000x4_1_0_0_1_n_n : DotDims S10000x80 S80x4 S10000x4 where
  lhsContracting := [1]
  rhsContracting := [0]
  lhsNonContracting := [0]
  rhsNonContracting := [1]
  lhsBatch := []
  rhsBatch := []
  wf := dot_S10000x80_S80x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf

class Facts : Prop extends Facts₀ where

variable [Facts]
-- ==== Proof.K.Common.lean ====
/-
  The kernel's body, phase by phase: shared vocabulary.

  The grid has 50 points `(p, i)`, `p` the phase and `i` the block of 400 adjacency rows. The body has three
  conditionals: the first (`p = 0 ∧ i = 0`) stores the first-layer support `x · W1` whole into a scratch
  buffer; the second (`p = 0`) stores rows `[400 i, 400 i + 400)` of the second-layer support into a second
  scratch buffer; the third (`p = 1`) stores the output block whole. Stated here: the three conditions,
  how one store through a whole buffer reads back, and how the row slice reads back over what the scratch held.
-/
import proofs.«164586_g31593779430026_cont_9to1_839_4_alg».proof.Proof.Gen.Kernel.Frame
import proofs.«164586_g31593779430026_cont_9to1_839_4_alg».proof.Proof.Gen.Kernel.Skeleton
import Idealize.ShloMosaic.Lib.Pipeline.FrameBody
import Idealize.ShloMosaic.Lib.Ring
import Idealize.ShloMosaic.Lib.Tactic
import Idealize.ShloMosaic.Lib.Pipeline.Value
import Idealize.ShloMosaic.Lib.WritesUnit
set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: taken at the grid's first point only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second: taken in phase 0. -/
abbrev cond0_1 (i : grid0.Coords) : Prop := k0_cond2 i = 1#1
/-- The third: taken in phase 1. -/
abbrev cond0_2 (i : grid0.Coords) : Prop := k0_cond3 i = 1#1

/-- The two zero offsets of a rank-2 rectangle, however they are spelt. -/
theorem hz2 : (![0, 0] : Fin 2 → ℕ) = fun _ => 0 := by
  funext a; fin_cases a <;> rfl

/-- One store through the whole buffer leaves its payload, whatever the buffer held. -/
theorem read_writes_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A 400-row slice `w` laid over contents `X` of the second-layer support's scratch, at the rows the
    grid point `i` addresses: inside the slice's rectangle `w` at the position within it, elsewhere `X`. -/
def sliceInto (i : grid0.Coords) (X : Vec F S10000x4 .f32) (w : Vec F S400x4 .f32) : Vec F S10000x4 .f32 :=
  fun y => if h : ∀ a, k0_off1 i a ≤ (y a).val ∧ (y a).val < k0_off1 i a + S400x4.size a then
    w (Rect.unitLocal (s := S10000x4) (off := k0_off1 i) (size := S400x4.size) y h) else X y

/-- One store of a slice through any whole memref of the scratch's shape, over contents `X`, reads back as `sliceInto`. -/
theorem read_slice_store (i : grid0.Coords) (hc1 : cond0_1 i) (M : Memref sig .tc .vmem S10000x4 .f32) (hM : M.IsWhole)
    (X : Vec F S10000x4 .f32) (w : Vec F S400x4 .f32) :
    M.view.read (Elt F) (M.view.writes (Elt F) (hM.unread X)
      [(⟨Rect.unit (s := S10000x4) (k0_off1 i) S400x4.size (Facts₀.k0_off1_inb i hc1), w⟩ : View.Piece (Elt F) S10000x4 .f32)])
      = sliceInto i X w := by
  funext y
  rw [View.read_writes_cons_unit M.view (hM.unread X) (Facts₀.k0_off1_inb i hc1) w [] y rfl]
  unfold sliceInto
  split
  · rfl
  · rw [View.writes_nil, hM.read_unread]

end Cert.Kernel.Hand

end
-- ==== Proof.K.BodyA.lean ====
/-
  The body at the grid's first point, as a triple over whole staging memrefs: the inputs keep their blocks,
  the output's buffer is untouched, the first scratch ends at `x · W1`, the second with its first slice laid in.
-/
import proofs.«164586_g31593779430026_cont_9to1_839_4_alg».proof.Proof.K.Common

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The grid's first point: the body stores the whole first-layer support `x · W1` into its scratch, reads it
    back, and stores the first 400-row slice of the second-layer support; the output's buffer is not touched. -/
theorem bodyA (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : cond0_0 i) (hc1 : cond0_1 i) (hc2 : ¬cond0_2 i)
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1) ∗ owns (c : Thread nD τ) arg10 fullShare (sliceInto i xs1 (k0_pay2 x5 (k0_pay1 x0 x1) x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [HS0]
  · iexists _; isplitr; swap; · iexact HS0
    ipureintro
    sl_unfold_words
    rw [read_writes_whole _ _ hz2]
    simp only [View.readAt_eq_ld, harg2.read_unread, harg3.read_unread,
      View.ld_unit_zero (S := S10000x128) hz2, View.ld_unit_zero (S := S128x80) hz2]
  iexists _; isplitr; swap; · iexact HS1
  ipureintro
  sl_unfold_words
  simp only [View.readAt_eq_ld, harg2.read_unread, harg3.read_unread, harg7.read_unread, harg4.read_unread, harg5.read_unread,
    View.readCov_unit_zero (S := S10000x80) _ hz2,
    View.ld_unit_zero (S := S10000x128) hz2, View.ld_unit_zero (S := S128x80) hz2, View.ld_unit_zero (S := S400x10000) hz2, View.ld_unit_zero (S := S1x80) hz2, View.ld_unit_zero (S := S80x4) hz2]
  exact read_slice_store i hc1 arg10 harg10 xs1 _

end Cert.Kernel.Hand

end
-- ==== Proof.K.BodyB.lean ====
/-
  The body at a later point of phase 0, as a triple over whole staging memrefs: the first scratch is only
  read, one 400-row slice is laid into the second, the output's buffer is untouched.
-/
import proofs.«164586_g31593779430026_cont_9to1_839_4_alg».proof.Proof.K.Common

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase 0 after the first point: the body reads the adjacency block, the whole first-layer support, the
    bias row and `W2`, and stores ONE 400-row slice of the second-layer support over what the scratch held;
    the output's buffer is not touched. -/
theorem bodyB (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : ¬cond0_0 i) (hc1 : cond0_1 i) (hc2 : ¬cond0_2 i)
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs0 : Vec F S10000x80 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (sliceInto i xs1 (k0_pay2 x5 xs0 x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [HS0]
  · iexists _; isplitr; · ipureintro; exact harg9.read_unread _
    iexact HS0
  iexists _; isplitr; swap; · iexact HS1
  ipureintro
  simp only [View.readAt_eq_ld, harg7.read_unread, harg9.read_unread, harg4.read_unread, harg5.read_unread,
    View.ld_unit_zero (S := S400x10000) hz2, View.ld_unit_zero (S := S10000x80) hz2, View.ld_unit_zero (S := S1x80) hz2, View.ld_unit_zero (S := S80x4) hz2]
  exact read_slice_store i hc1 arg10 harg10 xs1 _

end Cert.Kernel.Hand

end
-- ==== Proof.K.BodyC.lean ====
/-
  The body at a point of phase 1, as a triple over whole staging memrefs: both scratch buffers are only read,
  the output's buffer ends at `adj_block · support2 + b2`.
-/
import proofs.«164586_g31593779430026_cont_9to1_839_4_alg».proof.Proof.K.Common

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase 1: the body reads the adjacency block, the whole second-layer support and the bias row, and
    stores the result block whole; both scratch buffers are only read. -/
theorem bodyC (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : ¬cond0_0 i) (hc1 : ¬cond0_1 i) (hc2 : cond0_2 i)
    (x0 : Vec F S10000x128 .f32) (x1 : Vec F S128x80 .f32) (x2 : Vec F S1x80 .f32) (x3 : Vec F S80x4 .f32) (x4 : Vec F S1x4 .f32) (x5 : Vec F S400x10000 .f32) (xs0 : Vec F S10000x80 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ hz2]
    simp only [View.readAt_eq_ld, harg7.read_unread, harg10.read_unread, harg6.read_unread,
      View.ld_unit_zero (S := S400x10000) hz2, View.ld_unit_zero (S := S10000x4) hz2, View.ld_unit_zero (S := S1x4) hz2]
  isplitl [HS0]
  · iexists _; isplitr; · ipureintro; exact harg9.read_unread _
    iexact HS0
  iexists _; isplitr; · ipureintro; exact harg10.read_unread _
  iexact HS1

end Cert.Kernel.Hand

end
-- ==== Proof.K.Frame.lean ====
/-
  The kernel's frame with every carried buffer NAMED, at any instance of the float type.

  Between grid points the first scratch holds the first-layer support `S1 = x · W1` (from the first point on),
  and the second scratch agrees with the second-layer support `S2 = relu (adj · S1 + b1) · W2` on the rows the
  points so far have stored: point `t < 25` stores rows `[400 t, 400 t + 400)`, so after point 24 the scratch IS
  `S2`. In phase 0 the output's window sits on block 0 and is idle — the body hands its buffer back as found and
  nothing is written back; in phase 1 point `25 + i` stores block `i` whole, `adj_i · S2 + b2`, and the pipeline
  writes it back. So the result array ends as those 25 blocks, and the argument arrays are never written.
-/
import proofs.«164586_g31593779430026_cont_9to1_839_4_alg».proof.Proof.K.BodyA
import proofs.«164586_g31593779430026_cont_9to1_839_4_alg».proof.Proof.K.BodyB
import proofs.«164586_g31593779430026_cont_9to1_839_4_alg».proof.Proof.K.BodyC

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditionals and the schedule, in closed form over the 50 grid points (point `t` is `(t / 25, t % 25)`) -/

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val < 25 :=
  (by decide +kernel : ∀ t : Fin grid0.N, cond0_1 (grid0.coords t) ↔ t.val < 25)
theorem hcond0_2 : ∀ t : Fin cfg0.N, cond0_2 (grid0.coords t) ↔ 25 ≤ t.val :=
  (by decide +kernel : ∀ t : Fin grid0.N, cond0_2 (grid0.coords t) ↔ 25 ≤ t.val)

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output's window is idle exactly in phase 0, -/
theorem idle0_6 : ∀ t : Fin cfg0.N, cfg0.idle 6 (grid0.coords t) = decide (t.val < 25) :=
  (by decide +kernel : ∀ t : Fin grid0.N, cfg0.idle 6 (grid0.coords t) = decide (t.val < 25))
/-- and written back exactly after each point of phase 1: in phase 0 its block index stays 0, which is also
    the block of phase 1's first point. -/
theorem flush0_6 : ∀ t : Fin cfg0.N, (cfg0.win 6).flush t = decide (25 ≤ t.val) :=
  (by decide +kernel : ∀ t : Fin grid0.N, win0_6.flush t = decide (25 ≤ t.val))
/-- The slice a phase-0 point stores starts at row `400 · t`. -/
theorem off0_1 : ∀ t : Fin cfg0.N, t.val < 25 → k0_off1 (grid0.coords t) = ![400 * t.val, 0] :=
  (by decide +kernel : ∀ t : Fin grid0.N, t.val < 25 → k0_off1 (grid0.coords t) = ![400 * t.val, 0])

/-! ## The memrefs the body is called with -/

abbrev ms0_0 (t : Fin cfg0.N) : Memref sig .tc .vmem S10000x128 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S128x80 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S1x80 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S80x4 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S1x4 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S400x10000 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S400x4 .f32 := win0_6.stage (cfg0.slots t 6)
abbrev hs0_6 (t : Fin cfg0.N) : (ms0_6 t).IsWhole := Facts₀.hstage0_6 ((cfg0.slots t 6).cast Facts₀.nbuf0_6)
/-- The two scratch buffers, whole: the first-layer support and the second-layer support. -/
abbrev scM0_0 : Memref sig .tc .vmem S10000x80 .f32 := Memref.whole cc0_scratch0
abbrev scM0_1 : Memref sig .tc .vmem S10000x4 .f32 := Memref.whole cc0_scratch1

/-- What the launch hands the region, with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold, named -/

/-- The grid's first point. -/
def p0 : Fin cfg0.N := ⟨0, lt_of_lt_of_eq (by omega) N_0.symm⟩

/-- The first-layer support as the body computes it at the first point: `x · W1`. -/
def S1val (c : Dev nD) : Vec F S10000x80 .f32 := k0_pay1 (iblk m c 0 p0) (iblk m c 1 p0)

/-- The 400-row slice of the second-layer support a phase-0 point stores. -/
def s2blk (c : Dev nD) (t : Fin cfg0.N) : Vec F S400x4 .f32 :=
  k0_pay2 (iblk m c 5 t) (S1val m c) (iblk m c 2 t) (iblk m c 3 t)

theorem row_lt (y : S10000x4.Idx) : (y 0).val < 10000 := (y 0).isLt

/-- The grid point whose slice holds row `y 0`. -/
def ptOf (y : S10000x4.Idx) : Fin cfg0.N :=
  ⟨(y 0).val / 400, by have := row_lt y; have hN : cfg0.N = 50 := N_0; omega⟩

/-- The position of index `y` within its slice. -/
def locOf (y : S10000x4.Idx) : S400x4.Idx := fun a => match a with
  | ⟨0, _⟩ => ⟨(y 0).val % 400, Nat.mod_lt _ (by omega)⟩
  | ⟨1, _⟩ => ⟨(y 1).val, (y 1).isLt⟩

/-- The whole second-layer support: row `r` comes from the slice of point `r / 400`. -/
def S2val (c : Dev nD) : Vec F S10000x4 .f32 := fun y => s2blk m c (ptOf y) (locOf y)

/-- What a phase-1 point stores into the output's buffer. -/
def outBlk (c : Dev nD) (t : Fin cfg0.N) : Vec F S400x4 .f32 :=
  k0_pay3 (iblk m c 5 t) (S2val m c) (iblk m c 4 t)

/-- After point `n` the second scratch agrees with the second-layer support on the rows below `400 (n + 1)`
    (on all of them from point 24 on). -/
def Inv (c : Dev nD) (n : ℕ) (X : Vec F S10000x4 .f32) : Prop :=
  ∀ y : S10000x4.Idx, (y 0).val < 400 * (n + 1) → X y = S2val m c y

/-- The invariant between points: before the first point the scratch buffers hold anything; afterwards the first
    holds the first-layer support and the second agrees with the second-layer support on the rows filled so far. -/
def PhiS (c : Dev nD) : (n : ℕ) → n ≤ cfg0.N → sProp 𝕄
  | 0, _ => Pipeline.ΦA spec0 c
  | n + 1, _ => iprop(iprop(owns (c : Thread nD τ) scM0_0 fullShare (S1val m c) ∗ (∃ X, ⌜Inv m c n X⌝ ∗ owns (c : Thread nD τ) scM0_1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (S1val m c) ∗ (∃ X, ⌜Inv m c n X⌝ ∗ owns (c : Thread nD τ) scM0_1 fullShare X)) ∗ (∃ r, prngReg c r)) := rfl

theorem PhiS_pos (c : Dev nD) (n : ℕ) (h : n ≤ cfg0.N) (hz : n ≠ 0) :
    PhiS m c n h = iprop(iprop(owns (c : Thread nD τ) scM0_0 fullShare (S1val m c) ∗ (∃ X, ⌜Inv m c (n - 1) X⌝ ∗ owns (c : Thread nD τ) scM0_1 fullShare X)) ∗ (∃ r, prngReg c r)) := by
  cases n with
  | zero => exact absurd rfl hz
  | succ n => rfl

/-! ## The pipeline's proof data -/

/-- The arrays as the region finds them; after the body each input's buffer at its block and, at a phase-1 point,
    the output's at the block the point stores (in phase 0 the output's window is idle: the field is not read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The invariant's steps (pure) -/

/-- At the first point the first-layer support is the body's product of the blocks it was handed. -/
theorem S1val_p0 (c : Dev nD) : S1val m c = k0_pay1 (iblk m c 0 p0) (iblk m c 1 p0) := rfl

/-- A phase-0 point lays its slice over the scratch: the rows below `400 (t + 1)` then agree with the
    second-layer support — those of the slice by what the point stores, the earlier ones as before. -/
theorem inv_step (c : Dev nD) (t : Fin cfg0.N) (h1 : t.val < 25) (X : Vec F S10000x4 .f32)
    (hX : t.val = 0 ∨ Inv m c (t.val - 1) X) :
    Inv m c t.val (sliceInto (grid0.coords t) X (s2blk m c t)) := by
  intro y hy
  have ho0 : k0_off1 (grid0.coords t) 0 = 400 * t.val := congrFun (off0_1 t h1) 0
  have ho1 : k0_off1 (grid0.coords t) 1 = 0 := congrFun (off0_1 t h1) 1
  have hy1 : (y 1).val < 4 := (y 1).isLt
  unfold sliceInto
  by_cases hr : 400 * t.val ≤ (y 0).val
  · have hcond : ∀ a, k0_off1 (grid0.coords t) a ≤ (y a).val ∧ (y a).val < k0_off1 (grid0.coords t) a + S400x4.size a :=
      Fin.forall_fin_two.mpr
        ⟨⟨by rw [ho0]; exact hr, by rw [ho0]; show (y 0).val < 400 * t.val + 400; omega⟩,
         ⟨by rw [ho1]; exact Nat.zero_le _, by rw [ho1]; show (y 1).val < 0 + 4; omega⟩⟩
    rw [dif_pos hcond]
    have hp : ptOf y = t := Fin.ext (by show (y 0).val / 400 = t.val; omega)
    have hl : ∀ a, (Rect.unitLocal (s := S10000x4) (off := k0_off1 (grid0.coords t)) (size := S400x4.size) y hcond a).val
        = (locOf y a).val :=
      Fin.forall_fin_two.mpr
        ⟨by show (y 0).val - k0_off1 (grid0.coords t) 0 = (y 0).val % 400; rw [ho0]; omega,
         by show (y 1).val - k0_off1 (grid0.coords t) 1 = (y 1).val; rw [ho1]; omega⟩
    unfold S2val
    rw [hp]
    exact congrArg (s2blk m c t) (funext fun a => Fin.ext (hl a))
  · have hcond : ¬ ∀ a, k0_off1 (grid0.coords t) a ≤ (y a).val ∧ (y a).val < k0_off1 (grid0.coords t) a + S400x4.size a := by
      intro h; have := (h 0).1; rw [ho0] at this; exact hr this
    rw [dif_neg hcond]
    rcases hX with h0 | hX
    · omega
    · exact hX y (by omega)

/-- From point 24 on the scratch IS the second-layer support. -/
theorem inv_full (c : Dev nD) (n : ℕ) (hn : 24 ≤ n) (X : Vec F S10000x4 .f32) (hX : Inv m c n X) : X = S2val m c :=
  funext fun y => hX y (by have := row_lt y; omega)

theorem inv_of_eq (c : Dev nD) (n : ℕ) : Inv m c n (S2val m c) := fun _ _ => rfl

/-! ## The body obligation, phase by phase -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The first point: both scratch buffers arrive at anything; the first leaves at the first-layer support, the
    second with its first slice laid in; the output's buffer is handed back as found. -/
theorem sound_first (c : Dev nD) (t : Fin cfg0.N) (hz : t.val = 0) :
    bodyPre m c t ⊢ wp frame (wpE (defs₀ (F := F)) Variants.none c none) Set.univ (bodyAt0 t) (fun _ => bodyPost m c t) := by
  have h1 : t.val < 25 := by omega
  have ht : t = p0 := Fin.ext hz
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [(dats m 0 c).leavesExact_idle 6 t (by rw [idle0_6 t]; exact decide_eq_true h1) (by rw [flush0_6 t]; exact decide_eq_false (by omega))]
  rw [PhiS_castSucc m c t, PhiS_zero m c _ _ hz, PhiA0_eq]
  iintro ⟨⟨⟨⟨%ds0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (bodyA c (grid0.coords t) _ _ _ _ _ _ _ _ _ _ _ _ _ _ _ _ _ _ ((hcond0_0 t).mpr hz) ((hcond0_1 t).mpr h1) (fun h => absurd ((hcond0_2 t).mp h) (by omega)) (iblk m c 0 t) (iblk m c 1 t) (iblk m c 2 t) (iblk m c 3 t) (iblk m c 4 t) (iblk m c 5 t) ((dats m 0 c).before 6 t d6) xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  isplitl [HS1]; · iexact HS1
  iintro ⟨H0, H1, H2, H3, H4, H5, H6, HS0, HS1⟩
  isplitl [HS0 HS1 Hg]
  · isplitl [HS0 HS1]
    · isplitl [HS0]
      · rw [S1val_p0 m c, ← ht]; iexact HS0
      iexists _; isplitr; swap; · iexact HS1
      ipureintro
      have := inv_step m c t h1 xs1 (Or.inl hz)
      unfold s2blk at this
      rw [S1val_p0 m c, ← ht] at this
      exact this
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The rest of phase 0: the first-layer support is carried, one more slice is laid into the second scratch. -/
theorem sound_fill (c : Dev nD) (t : Fin cfg0.N) (hz : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [(dats m 0 c).leavesExact_idle 6 t (by rw [idle0_6 t]; exact decide_eq_true h1) (by rw [flush0_6 t]; exact decide_eq_false (by omega))]
  rw [PhiS_castSucc m c t, PhiS_pos m c _ _ hz]
  iintro ⟨⟨⟨HS0, ⟨%xs1, %hxs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (bodyB c (grid0.coords t) _ _ _ _ _ _ _ _ _ _ _ _ _ _ _ _ _ _ (fun h => hz ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) ((dats m 0 c).before 6 t d6) (S1val m c) xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _; isplitr; swap; · iexact HS1
      ipureintro
      exact inv_step m c t h1 xs1 (Or.inr hxs1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Phase 1: both scratch buffers are complete and only read; the output's buffer leaves at the point's block. -/
theorem sound_emit (c : Dev nD) (t : Fin cfg0.N) (h2 : 25 ≤ t.val) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [idle0_6 t, show decide (t.val < 25) = false from decide_eq_false (by omega)], after0_6]
  rw [PhiS_castSucc m c t, PhiS_pos m c _ _ hz]
  iintro ⟨⟨⟨HS0, ⟨%xs1, %hxs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  obtain rfl : xs1 = S2val m c := inv_full m c (t.val - 1) (by omega) xs1 hxs1
  iapply (bodyC c (grid0.coords t) _ _ _ _ _ _ _ _ _ _ _ _ _ _ _ _ _ _ (fun h => hz ((hcond0_0 t).mp h)) (fun h => absurd ((hcond0_1 t).mp h) (by omega)) ((hcond0_2 t).mpr h2) (iblk m c 0 t) (iblk m c 1 t) (iblk m c 2 t) (iblk m c 3 t) (iblk m c 4 t) (iblk m c 5 t) (S1val m c) (S2val m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _; isplitr; swap; · iexact HS1
      ipureintro
      exact inv_of_eq m c t.val
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 25
  · by_cases hz : t.val = 0
    · exact sound_first m c t hz
    · exact sound_fill m c t hz h1
  · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' named contents are forgotten. -/
theorem hout (c : Dev nD) : (dats m 0 c).Φ (Fin.last cfg0.N) ⊢ Pipeline.ΦA spec0 c := by
  have hN : cfg0.N = 50 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨⟨HS0, ⟨%X, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates with each array of the pipeline at what the library computes
    from the proof data — the output at the blocks phase 1 wrote back — and every other unscoped buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.Common.lean ====
/-
  The kernel's body, phase by phase: shared vocabulary.

  The grid has 50 points `(p, i)`, `p` the phase and `i` the block of 400 adjacency rows. The body has three
  conditionals: the first (`p = 0 ∧ i = 0`) stores the first-layer support `x · W1` whole into a scratch
  buffer; the second (`p = 0`) stores rows `[400 i, 400 i + 400)` of the second-layer support into a second
  scratch buffer; the third (`p = 1`) stores the output block whole. Stated here: the three conditions,
  how one store through a whole buffer reads back, and how the row slice reads back over what the scratch held.
-/
import proofs.«164586_g31593779430026_cont_9to1_839_4_alg».proof.Proof.Gen.KernelIdeal.Frame
import proofs.«164586_g31593779430026_cont_9to1_839_4_alg».proof.Proof.Gen.KernelIdeal.Skeleton
import Idealize.ShloMosaic.Lib.Pipeline.FrameBody
import Idealize.ShloMosaic.Lib.Ring
import Idealize.ShloMosaic.Lib.Tactic
import Idealize.ShloMosaic.Lib.Pipeline.Value
import Idealize.ShloMosaic.Lib.WritesUnit
set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: taken at the grid's first point only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second: taken in phase 0. -/
abbrev cond0_1 (i : grid0.Coords) : Prop := k0_cond2 i = 1#1
/-- The third: taken in phase 1. -/
abbrev cond0_2 (i : grid0.Coords) : Prop := k0_cond3 i = 1#1

/-- The two zero offsets of a rank-2 rectangle, however they are spelt. -/
theorem hz2 : (![0, 0] : Fin 2 → ℕ) = fun _ => 0 := by
  funext a; fin_cases a <;> rfl

/-- One store through the whole buffer leaves its payload, whatever the buffer held. -/
theorem read_writes_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A 400-row slice `w` laid over contents `X` of the second-layer support's scratch, at the rows the
    grid point `i` addresses: inside the slice's rectangle `w` at the position within it, elsewhere `X`. -/
def sliceInto (i : grid0.Coords) (X : Vec F S10000x4 .f32) (w : Vec F S400x4 .f32) : Vec F S10000x4 .f32 :=
  fun y => if h : ∀ a, k0_off1 i a ≤ (y a).val ∧ (y a).val < k0_off1 i a + S400x4.size a then
    w (Rect.unitLocal (s := S10000x4) (off := k0_off1 i) (size := S400x4.size) y h) else X y

/-- One store of a slice through any whole memref of the scratch's shape, over contents `X`, reads back as `sliceInto`. -/
theorem read_slice_store (i : grid0.Coords) (hc1 : cond0_1 i) (M : Memref sig .tc .vmem S10000x4 .f32) (hM : M.IsWhole)
    (X : Vec F S10000x4 .f32) (w : Vec F S400x4 .f32) :
    M.view.read (Elt F) (M.view.writes (Elt F) (hM.unread X)
      [(⟨Rect.unit (s := S10000x4) (k0_off1 i) S400x4.size (Facts₀.k0_off1_inb i hc1), w⟩ : View.Piece (Elt F) S10000x4 .f32)])
      = sliceInto i X w := by
  funext y
  rw [View.read_writes_cons_unit M.view (hM.unread X) (Facts₀.k0_off1_inb i hc1) w [] y rfl]
  unfold sliceInto
  split
  · rfl
  · rw [View.writes_nil, hM.read_unread]

end Cert.KernelIdeal.Hand

end
-- ==== Proof.KI.BodyA.lean ====
/-
  The body at the grid's first point, as a triple over whole staging memrefs: the inputs keep their blocks,
  the output's buffer is untouched, the first scratch ends at `x · W1`, the second with its first slice laid in.
-/
import proofs.«164586_g31593779430026_cont_9to1_839_4_alg».proof.Proof.KI.Common

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The grid's first point: the body stores the whole first-layer support `x · W1` into its scratch, reads it
    back, and stores the first 400-row slice of the second-layer support; the output's buffer is not touched. -/
theorem bodyA (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : cond0_0 i) (hc1 : cond0_1 i) (hc2 : ¬cond0_2 i)
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1) ∗ owns (c : Thread nD τ) arg10 fullShare (sliceInto i xs1 (k0_pay2 x5 (k0_pay1 x0 x1) x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [HS0]
  · iexists _; isplitr; swap; · iexact HS0
    ipureintro
    sl_unfold_words
    rw [read_writes_whole _ _ hz2]
    simp only [View.readAt_eq_ld, harg2.read_unread, harg3.read_unread,
      View.ld_unit_zero (S := S10000x128) hz2, View.ld_unit_zero (S := S128x80) hz2]
  iexists _; isplitr; swap; · iexact HS1
  ipureintro
  sl_unfold_words
  simp only [View.readAt_eq_ld, harg2.read_unread, harg3.read_unread, harg7.read_unread, harg4.read_unread, harg5.read_unread,
    View.readCov_unit_zero (S := S10000x80) _ hz2,
    View.ld_unit_zero (S := S10000x128) hz2, View.ld_unit_zero (S := S128x80) hz2, View.ld_unit_zero (S := S400x10000) hz2, View.ld_unit_zero (S := S1x80) hz2, View.ld_unit_zero (S := S80x4) hz2]
  exact read_slice_store i hc1 arg10 harg10 xs1 _

end Cert.KernelIdeal.Hand

end
-- ==== Proof.KI.BodyB.lean ====
/-
  The body at a later point of phase 0, as a triple over whole staging memrefs: the first scratch is only
  read, one 400-row slice is laid into the second, the output's buffer is untouched.
-/
import proofs.«164586_g31593779430026_cont_9to1_839_4_alg».proof.Proof.KI.Common

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase 0 after the first point: the body reads the adjacency block, the whole first-layer support, the
    bias row and `W2`, and stores ONE 400-row slice of the second-layer support over what the scratch held;
    the output's buffer is not touched. -/
theorem bodyB (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : ¬cond0_0 i) (hc1 : cond0_1 i) (hc2 : ¬cond0_2 i)
    (x0 : Vec F S10000x128 .f32) (x1 : Vec F S128x80 .f32) (x2 : Vec F S1x80 .f32) (x3 : Vec F S80x4 .f32) (x4 : Vec F S1x4 .f32) (x5 : Vec F S400x10000 .f32) (x6 : Vec F S400x4 .f32) (xs0 : Vec F S10000x80 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (sliceInto i xs1 (k0_pay2 x5 xs0 x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [HS0]
  · iexists _; isplitr; · ipureintro; exact harg9.read_unread _
    iexact HS0
  iexists _; isplitr; swap; · iexact HS1
  ipureintro
  simp only [View.readAt_eq_ld, harg7.read_unread, harg9.read_unread, harg4.read_unread, harg5.read_unread,
    View.ld_unit_zero (S := S400x10000) hz2, View.ld_unit_zero (S := S10000x80) hz2, View.ld_unit_zero (S := S1x80) hz2, View.ld_unit_zero (S := S80x4) hz2]
  exact read_slice_store i hc1 arg10 harg10 xs1 _

end Cert.KernelIdeal.Hand

end
-- ==== Proof.KI.BodyC.lean ====
/-
  The body at a point of phase 1, as a triple over whole staging memrefs: both scratch buffers are only read,
  the output's buffer ends at `adj_block · support2 + b2`.
-/
import proofs.«164586_g31593779430026_cont_9to1_839_4_alg».proof.Proof.KI.Common

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Phase 1: the body reads the adjacency block, the whole second-layer support and the bias row, and
    stores the result block whole; both scratch buffers are only read. -/
theorem bodyC (c : Dev nD) (i : grid0.Coords) (arg2 : Memref sig .tc .vmem S10000x128 .f32) (harg2 : arg2.IsWhole) (arg3 : Memref sig .tc .vmem S128x80 .f32) (harg3 : arg3.IsWhole) (arg4 : Memref sig .tc .vmem S1x80 .f32) (harg4 : arg4.IsWhole) (arg5 : Memref sig .tc .vmem S80x4 .f32) (harg5 : arg5.IsWhole) (arg6 : Memref sig .tc .vmem S1x4 .f32) (harg6 : arg6.IsWhole) (arg7 : Memref sig .tc .vmem S400x10000 .f32) (harg7 : arg7.IsWhole) (arg8 : Memref sig .tc .vmem S400x4 .f32) (harg8 : arg8.IsWhole) (arg9 : Memref sig .tc .vmem S10000x80 .f32) (harg9 : arg9.IsWhole) (arg10 : Memref sig .tc .vmem S10000x4 .f32) (harg10 : arg10.IsWhole) (hc0 : ¬cond0_0 i) (hc1 : ¬cond0_1 i) (hc2 : cond0_2 i)
    (x0 : Vec F S10000x128 .f32) (x1 : Vec F S128x80 .f32) (x2 : Vec F S1x80 .f32) (x3 : Vec F S80x4 .f32) (x4 : Vec F S1x4 .f32) (x5 : Vec F S400x10000 .f32) (xs0 : Vec F S10000x80 .f32) (xs1 : Vec F S10000x4 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_writes_whole _ _ hz2]
    simp only [View.readAt_eq_ld, harg7.read_unread, harg10.read_unread, harg6.read_unread,
      View.ld_unit_zero (S := S400x10000) hz2, View.ld_unit_zero (S := S10000x4) hz2, View.ld_unit_zero (S := S1x4) hz2]
  isplitl [HS0]
  · iexists _; isplitr; · ipureintro; exact harg9.read_unread _
    iexact HS0
  iexists _; isplitr; · ipureintro; exact harg10.read_unread _
  iexact HS1

end Cert.KernelIdeal.Hand

end
-- ==== Proof.KI.Frame.lean ====
/-
  The kernel's frame with every carried buffer NAMED, at any instance of the float type.

  Between grid points the first scratch holds the first-layer support `S1 = x · W1` (from the first point on),
  and the second scratch agrees with the second-layer support `S2 = relu (adj · S1 + b1) · W2` on the rows the
  points so far have stored: point `t < 25` stores rows `[400 t, 400 t + 400)`, so after point 24 the scratch IS
  `S2`. In phase 0 the output's window sits on block 0 and is idle — the body hands its buffer back as found and
  nothing is written back; in phase 1 point `25 + i` stores block `i` whole, `adj_i · S2 + b2`, and the pipeline
  writes it back. So the result array ends as those 25 blocks, and the argument arrays are never written.
-/
import proofs.«164586_g31593779430026_cont_9to1_839_4_alg».proof.Proof.KI.BodyA
import proofs.«164586_g31593779430026_cont_9to1_839_4_alg».proof.Proof.KI.BodyB
import proofs.«164586_g31593779430026_cont_9to1_839_4_alg».proof.Proof.KI.BodyC

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditionals and the schedule, in closed form over the 50 grid points (point `t` is `(t / 25, t % 25)`) -/

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val < 25 :=
  (by decide +kernel : ∀ t : Fin grid0.N, cond0_1 (grid0.coords t) ↔ t.val < 25)
theorem hcond0_2 : ∀ t : Fin cfg0.N, cond0_2 (grid0.coords t) ↔ 25 ≤ t.val :=
  (by decide +kernel : ∀ t : Fin grid0.N, cond0_2 (grid0.coords t) ↔ 25 ≤ t.val)

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output's window is idle exactly in phase 0, -/
theorem idle0_6 : ∀ t : Fin cfg0.N, cfg0.idle 6 (grid0.coords t) = decide (t.val < 25) :=
  (by decide +kernel : ∀ t : Fin grid0.N, cfg0.idle 6 (grid0.coords t) = decide (t.val < 25))
/-- and written back exactly after each point of phase 1: in phase 0 its block index stays 0, which is also
    the block of phase 1's first point. -/
theorem flush0_6 : ∀ t : Fin cfg0.N, (cfg0.win 6).flush t = decide (25 ≤ t.val) :=
  (by decide +kernel : ∀ t : Fin grid0.N, win0_6.flush t = decide (25 ≤ t.val))
/-- The slice a phase-0 point stores starts at row `400 · t`. -/
theorem off0_1 : ∀ t : Fin cfg0.N, t.val < 25 → k0_off1 (grid0.coords t) = ![400 * t.val, 0] :=
  (by decide +kernel : ∀ t : Fin grid0.N, t.val < 25 → k0_off1 (grid0.coords t) = ![400 * t.val, 0])

/-! ## The memrefs the body is called with -/

abbrev ms0_0 (t : Fin cfg0.N) : Memref sig .tc .vmem S10000x128 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S128x80 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S1x80 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S80x4 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S1x4 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S400x10000 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S400x4 .f32 := win0_6.stage (cfg0.slots t 6)
abbrev hs0_6 (t : Fin cfg0.N) : (ms0_6 t).IsWhole := Facts₀.hstage0_6 ((cfg0.slots t 6).cast Facts₀.nbuf0_6)
/-- The two scratch buffers, whole: the first-layer support and the second-layer support. -/
abbrev scM0_0 : Memref sig .tc .vmem S10000x80 .f32 := Memref.whole cc0_scratch0
abbrev scM0_1 : Memref sig .tc .vmem S10000x4 .f32 := Memref.whole cc0_scratch1

/-- What the launch hands the region, with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold, named -/

/-- The grid's first point. -/
def p0 : Fin cfg0.N := ⟨0, lt_of_lt_of_eq (by omega) N_0.symm⟩

/-- The first-layer support as the body computes it at the first point: `x · W1`. -/
def S1val (c : Dev nD) : Vec F S10000x80 .f32 := k0_pay1 (iblk m c 0 p0) (iblk m c 1 p0)

/-- The 400-row slice of the second-layer support a phase-0 point stores. -/
def s2blk (c : Dev nD) (t : Fin cfg0.N) : Vec F S400x4 .f32 :=
  k0_pay2 (iblk m c 5 t) (S1val m c) (iblk m c 2 t) (iblk m c 3 t)

theorem row_lt (y : S10000x4.Idx) : (y 0).val < 10000 := (y 0).isLt

/-- The grid point whose slice holds row `y 0`. -/
def ptOf (y : S10000x4.Idx) : Fin cfg0.N :=
  ⟨(y 0).val / 400, by have := row_lt y; have hN : cfg0.N = 50 := N_0; omega⟩

/-- The position of index `y` within its slice. -/
def locOf (y : S10000x4.Idx) : S400x4.Idx := fun a => match a with
  | ⟨0, _⟩ => ⟨(y 0).val % 400, Nat.mod_lt _ (by omega)⟩
  | ⟨1, _⟩ => ⟨(y 1).val, (y 1).isLt⟩

/-- The whole second-layer support: row `r` comes from the slice of point `r / 400`. -/
def S2val (c : Dev nD) : Vec F S10000x4 .f32 := fun y => s2blk m c (ptOf y) (locOf y)

/-- What a phase-1 point stores into the output's buffer. -/
def outBlk (c : Dev nD) (t : Fin cfg0.N) : Vec F S400x4 .f32 :=
  k0_pay3 (iblk m c 5 t) (S2val m c) (iblk m c 4 t)

/-- After point `n` the second scratch agrees with the second-layer support on the rows below `400 (n + 1)`
    (on all of them from point 24 on). -/
def Inv (c : Dev nD) (n : ℕ) (X : Vec F S10000x4 .f32) : Prop :=
  ∀ y : S10000x4.Idx, (y 0).val < 400 * (n + 1) → X y = S2val m c y

/-- The invariant between points: before the first point the scratch buffers hold anything; afterwards the first
    holds the first-layer support and the second agrees with the second-layer support on the rows filled so far. -/
def PhiS (c : Dev nD) : (n : ℕ) → n ≤ cfg0.N → sProp 𝕄
  | 0, _ => Pipeline.ΦA spec0 c
  | n + 1, _ => iprop(iprop(owns (c : Thread nD τ) scM0_0 fullShare (S1val m c) ∗ (∃ X, ⌜Inv m c n X⌝ ∗ owns (c : Thread nD τ) scM0_1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (S1val m c) ∗ (∃ X, ⌜Inv m c n X⌝ ∗ owns (c : Thread nD τ) scM0_1 fullShare X)) ∗ (∃ r, prngReg c r)) := rfl

theorem PhiS_pos (c : Dev nD) (n : ℕ) (h : n ≤ cfg0.N) (hz : n ≠ 0) :
    PhiS m c n h = iprop(iprop(owns (c : Thread nD τ) scM0_0 fullShare (S1val m c) ∗ (∃ X, ⌜Inv m c (n - 1) X⌝ ∗ owns (c : Thread nD τ) scM0_1 fullShare X)) ∗ (∃ r, prngReg c r)) := by
  cases n with
  | zero => exact absurd rfl hz
  | succ n => rfl

/-! ## The pipeline's proof data -/

/-- The arrays as the region finds them; after the body each input's buffer at its block and, at a phase-1 point,
    the output's at the block the point stores (in phase 0 the output's window is idle: the field is not read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The invariant's steps (pure) -/

/-- At the first point the first-layer support is the body's product of the blocks it was handed. -/
theorem S1val_p0 (c : Dev nD) : S1val m c = k0_pay1 (iblk m c 0 p0) (iblk m c 1 p0) := rfl

/-- A phase-0 point lays its slice over the scratch: the rows below `400 (t + 1)` then agree with the
    second-layer support — those of the slice by what the point stores, the earlier ones as before. -/
theorem inv_step (c : Dev nD) (t : Fin cfg0.N) (h1 : t.val < 25) (X : Vec F S10000x4 .f32)
    (hX : t.val = 0 ∨ Inv m c (t.val - 1) X) :
    Inv m c t.val (sliceInto (grid0.coords t) X (s2blk m c t)) := by
  intro y hy
  have ho0 : k0_off1 (grid0.coords t) 0 = 400 * t.val := congrFun (off0_1 t h1) 0
  have ho1 : k0_off1 (grid0.coords t) 1 = 0 := congrFun (off0_1 t h1) 1
  have hy1 : (y 1).val < 4 := (y 1).isLt
  unfold sliceInto
  by_cases hr : 400 * t.val ≤ (y 0).val
  · have hcond : ∀ a, k0_off1 (grid0.coords t) a ≤ (y a).val ∧ (y a).val < k0_off1 (grid0.coords t) a + S400x4.size a :=
      Fin.forall_fin_two.mpr
        ⟨⟨by rw [ho0]; exact hr, by rw [ho0]; show (y 0).val < 400 * t.val + 400; omega⟩,
         ⟨by rw [ho1]; exact Nat.zero_le _, by rw [ho1]; show (y 1).val < 0 + 4; omega⟩⟩
    rw [dif_pos hcond]
    have hp : ptOf y = t := Fin.ext (by show (y 0).val / 400 = t.val; omega)
    have hl : ∀ a, (Rect.unitLocal (s := S10000x4) (off := k0_off1 (grid0.coords t)) (size := S400x4.size) y hcond a).val
        = (locOf y a).val :=
      Fin.forall_fin_two.mpr
        ⟨by show (y 0).val - k0_off1 (grid0.coords t) 0 = (y 0).val % 400; rw [ho0]; omega,
         by show (y 1).val - k0_off1 (grid0.coords t) 1 = (y 1).val; rw [ho1]; omega⟩
    unfold S2val
    rw [hp]
    exact congrArg (s2blk m c t) (funext fun a => Fin.ext (hl a))
  · have hcond : ¬ ∀ a, k0_off1 (grid0.coords t) a ≤ (y a).val ∧ (y a).val < k0_off1 (grid0.coords t) a + S400x4.size a := by
      intro h; have := (h 0).1; rw [ho0] at this; exact hr this
    rw [dif_neg hcond]
    rcases hX with h0 | hX
    · omega
    · exact hX y (by omega)

/-- From point 24 on the scratch IS the second-layer support. -/
theorem inv_full (c : Dev nD) (n : ℕ) (hn : 24 ≤ n) (X : Vec F S10000x4 .f32) (hX : Inv m c n X) : X = S2val m c :=
  funext fun y => hX y (by have := row_lt y; omega)

theorem inv_of_eq (c : Dev nD) (n : ℕ) : Inv m c n (S2val m c) := fun _ _ => rfl

/-! ## The body obligation, phase by phase -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The first point: both scratch buffers arrive at anything; the first leaves at the first-layer support, the
    second with its first slice laid in; the output's buffer is handed back as found. -/
theorem sound_first (c : Dev nD) (t : Fin cfg0.N) (hz : t.val = 0) :
    bodyPre m c t ⊢ wp frame (wpE (defs₀ (F := F)) Variants.none c none) Set.univ (bodyAt0 t) (fun _ => bodyPost m c t) := by
  have h1 : t.val < 25 := by omega
  have ht : t = p0 := Fin.ext hz
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [(dats m 0 c).leavesExact_idle 6 t (by rw [idle0_6 t]; exact decide_eq_true h1) (by rw [flush0_6 t]; exact decide_eq_false (by omega))]
  rw [PhiS_castSucc m c t, PhiS_zero m c _ _ hz, PhiA0_eq]
  iintro ⟨⟨⟨⟨%ds0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (bodyA c (grid0.coords t) _ _ _ _ _ _ _ _ _ _ _ _ _ _ _ _ _ _ ((hcond0_0 t).mpr hz) ((hcond0_1 t).mpr h1) (fun h => absurd ((hcond0_2 t).mp h) (by omega)) (iblk m c 0 t) (iblk m c 1 t) (iblk m c 2 t) (iblk m c 3 t) (iblk m c 4 t) (iblk m c 5 t) ((dats m 0 c).before 6 t d6) xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  isplitl [HS1]; · iexact HS1
  iintro ⟨H0, H1, H2, H3, H4, H5, H6, HS0, HS1⟩
  isplitl [HS0 HS1 Hg]
  · isplitl [HS0 HS1]
    · isplitl [HS0]
      · rw [S1val_p0 m c, ← ht]; iexact HS0
      iexists _; isplitr; swap; · iexact HS1
      ipureintro
      have := inv_step m c t h1 xs1 (Or.inl hz)
      unfold s2blk at this
      rw [S1val_p0 m c, ← ht] at this
      exact this
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The rest of phase 0: the first-layer support is carried, one more slice is laid into the second scratch. -/
theorem sound_fill (c : Dev nD) (t : Fin cfg0.N) (hz : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [(dats m 0 c).leavesExact_idle 6 t (by rw [idle0_6 t]; exact decide_eq_true h1) (by rw [flush0_6 t]; exact decide_eq_false (by omega))]
  rw [PhiS_castSucc m c t, PhiS_pos m c _ _ hz]
  iintro ⟨⟨⟨HS0, ⟨%xs1, %hxs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (bodyB c (grid0.coords t) _ _ _ _ _ _ _ _ _ _ _ _ _ _ _ _ _ _ (fun h => hz ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) ((dats m 0 c).before 6 t d6) (S1val m c) xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _; isplitr; swap; · iexact HS1
      ipureintro
      exact inv_step m c t h1 xs1 (Or.inr hxs1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Phase 1: both scratch buffers are complete and only read; the output's buffer leaves at the point's block. -/
theorem sound_emit (c : Dev nD) (t : Fin cfg0.N) (h2 : 25 ≤ t.val) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [idle0_6 t, show decide (t.val < 25) = false from decide_eq_false (by omega)], after0_6]
  rw [PhiS_castSucc m c t, PhiS_pos m c _ _ hz]
  iintro ⟨⟨⟨HS0, ⟨%xs1, %hxs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  obtain rfl : xs1 = S2val m c := inv_full m c (t.val - 1) (by omega) xs1 hxs1
  iapply (bodyC c (grid0.coords t) _ _ _ _ _ _ _ _ _ _ _ _ _ _ _ _ _ _ (fun h => hz ((hcond0_0 t).mp h)) (fun h => absurd ((hcond0_1 t).mp h) (by omega)) ((hcond0_2 t).mpr h2) (iblk m c 0 t) (iblk m c 1 t) (iblk m c 2 t) (iblk m c 3 t) (iblk m c 4 t) (iblk m c 5 t) (S1val m c) (S2val m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _; isplitr; swap; · iexact HS1
      ipureintro
      exact inv_of_eq m c t.val
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 25
  · by_cases hz : t.val = 0
    · exact sound_first m c t hz
    · exact sound_fill m c t hz h1
  · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' named contents are forgotten. -/
theorem hout (c : Dev nD) : (dats m 0 c).Φ (Fin.last cfg0.N) ⊢ Pipeline.ΦA spec0 c := by
  have hN : cfg0.N = 50 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨⟨HS0, ⟨%X, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates with each array of the pipeline at what the library computes
    from the proof data — the output at the blocks phase 1 wrote back — and every other unscoped buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := hin m) (hout := hout m)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The function both programs compute: a two-layer graph convolution over a dense adjacency matrix,
  written entry by entry on the extended reals.

    support1[r, j] = Σ_k x[r, k] · W1[k, j]
    hidden[r, j]   = max (Σ_k adj[r, k] · support1[k, j] + b1[j]) 0
    support2[r, j] = Σ_k hidden[r, k] · W2[k, j]
    emb[r, j]      = Σ_k adj[r, k] · support2[k, j] + b2[j]

  Every sum runs over a whole contracted axis in the axis's own order, so neither side regroups a sum:
  the kernel only cuts the ROWS of `adj` into blocks of 400, and a row of a product depends on that row
  of the left factor alone. No law of the extended reals beyond that is used, and the inputs' finiteness
  is never opened.
-/
import Idealize.ShloMosaic.PureOps.Ideal
import Idealize.ShloMosaic.Lib.ValueIdx

noncomputable section

namespace Cert.Gcn

open Idealize.ShloMosaic Idealize.ShloMosaic.ValueIdx

/-- The zero the rectifier compares with, kept as the word both programs print. -/
abbrev zero32 : EReal := Ideal.ofBits .f32 0x00000000#32

/-- `x · W1`: row `r`, column `j`. -/
def support1 (x : (⟨2, ![10000, 128]⟩ : Shape).Idx → EReal) (w1 : (⟨2, ![128, 80]⟩ : Shape).Idx → EReal)
    (r : Fin 10000) (j : Fin 80) : EReal :=
  ∑ k : Fin 128, x (ix2 r k) * w1 (ix2 k j)

/-- `relu (adj · s + b1)` for any first-layer support `s`. -/
def hidden (adj : (⟨2, ![10000, 10000]⟩ : Shape).Idx → EReal) (s : Fin 10000 → Fin 80 → EReal)
    (b1 : (⟨1, ![80]⟩ : Shape).Idx → EReal) (r : Fin 10000) (j : Fin 80) : EReal :=
  max ((∑ k : Fin 10000, adj (ix2 r k) * s k j) + b1 (ix1 j)) zero32

/-- `h · W2`. -/
def support2 (h : Fin 10000 → Fin 80 → EReal) (w2 : (⟨2, ![80, 4]⟩ : Shape).Idx → EReal)
    (r : Fin 10000) (j : Fin 4) : EReal :=
  ∑ k : Fin 80, h r k * w2 (ix2 k j)

/-- `adj · s + b2` for any second-layer support `s`. -/
def layer2 (adj : (⟨2, ![10000, 10000]⟩ : Shape).Idx → EReal) (s : Fin 10000 → Fin 4 → EReal)
    (b2 : (⟨1, ![4]⟩ : Shape).Idx → EReal) (r : Fin 10000) (j : Fin 4) : EReal :=
  (∑ k : Fin 10000, adj (ix2 r k) * s k j) + b2 (ix1 j)

/-- The second-layer support as a function of the arguments. -/
def s2Of (x : (⟨2, ![10000, 128]⟩ : Shape).Idx → EReal) (adj : (⟨2, ![10000, 10000]⟩ : Shape).Idx → EReal)
    (w1 : (⟨2, ![128, 80]⟩ : Shape).Idx → EReal) (b1 : (⟨1, ![80]⟩ : Shape).Idx → EReal)
    (w2 : (⟨2, ![80, 4]⟩ : Shape).Idx → EReal) : Fin 10000 → Fin 4 → EReal :=
  support2 (hidden adj (support1 x w1) b1) w2

/-- The embedding, as ONE function of the six argument arrays, index by index. -/
def emb (x : (⟨2, ![10000, 128]⟩ : Shape).Idx → EReal) (adj : (⟨2, ![10000, 10000]⟩ : Shape).Idx → EReal)
    (w1 : (⟨2, ![128, 80]⟩ : Shape).Idx → EReal) (b1 : (⟨1, ![80]⟩ : Shape).Idx → EReal)
    (w2 : (⟨2, ![80, 4]⟩ : Shape).Idx → EReal) (b2 : (⟨1, ![4]⟩ : Shape).Idx → EReal) :
    (⟨2, ![10000, 4]⟩ : Shape).Idx → EReal :=
  fun i => layer2 adj (s2Of x adj w1 b1 w2) b2 (i 0) (i 1)

end Cert.Gcn

end
-- ==== Proof.KI.Blocks.lean ====
/-
  The windows' blocks read off the argument arrays. Five windows hold a whole array at every grid point (the
  two bias rows through the reshapes [80] → [1, 80] and [4] → [1, 4] that @main does before the region); the
  adjacency window's block at point `t` is the 400 rows from `400 (t % 25)`.
-/
import proofs.«164586_g31593779430026_cont_9to1_839_4_alg».proof.Proof.KI.Frame
import proofs.«164586_g31593779430026_cont_9to1_839_4_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.GcnKernel

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The arguments as whole arrays of their literal shapes. -/
abbrev argX (c : Dev nD) : Vec Ideal S10000x128 .f32 := m ((c.tc : Thread nD τ).loc main_arg0)
abbrev argAdj (c : Dev nD) : Vec Ideal S10000x10000 .f32 := m ((c.tc : Thread nD τ).loc main_arg1)
abbrev argW1 (c : Dev nD) : Vec Ideal S128x80 .f32 := m ((c.tc : Thread nD τ).loc main_arg2)
abbrev argB1 (c : Dev nD) : Vec Ideal S80 .f32 := m ((c.tc : Thread nD τ).loc main_arg3)
abbrev argW2 (c : Dev nD) : Vec Ideal S80x4 .f32 := m ((c.tc : Thread nD τ).loc main_arg4)
abbrev argB2 (c : Dev nD) : Vec Ideal S4 .f32 := m ((c.tc : Thread nD τ).loc main_arg5)

/-- The windows' blocks at their literal shapes. -/
abbrev blkX (c : Dev nD) (t : Fin cfg0.N) : Vec Ideal S10000x128 .f32 := iblk m c 0 t
abbrev blkW1 (c : Dev nD) (t : Fin cfg0.N) : Vec Ideal S128x80 .f32 := iblk m c 1 t
abbrev blkB1 (c : Dev nD) (t : Fin cfg0.N) : Vec Ideal S1x80 .f32 := iblk m c 2 t
abbrev blkW2 (c : Dev nD) (t : Fin cfg0.N) : Vec Ideal S80x4 .f32 := iblk m c 3 t
abbrev blkB2 (c : Dev nD) (t : Fin cfg0.N) : Vec Ideal S1x4 .f32 := iblk m c 4 t
abbrev blkAdj (c : Dev nD) (t : Fin cfg0.N) : Vec Ideal S400x10000 .f32 := iblk m c 5 t

/-! ## The printed index maps, decided once over the 50 grid points

The five whole-array windows sit on block (0, 0) at every point; the adjacency window sits on block
(t % 25, 0): its row block follows the grid's second coordinate, and its one column block is the whole row. -/

theorem idxX : ∀ t : Fin cfg0.N, win0_0.index t (0 : Fin 2) = 0 ∧ win0_0.index t (1 : Fin 2) = 0 :=
  (by decide +kernel : ∀ t : Fin grid0.N, _)
theorem idxW1 : ∀ t : Fin cfg0.N, win0_1.index t (0 : Fin 2) = 0 ∧ win0_1.index t (1 : Fin 2) = 0 :=
  (by decide +kernel : ∀ t : Fin grid0.N, _)
theorem idxB1 : ∀ t : Fin cfg0.N, win0_2.index t (0 : Fin 2) = 0 ∧ win0_2.index t (1 : Fin 2) = 0 :=
  (by decide +kernel : ∀ t : Fin grid0.N, _)
theorem idxW2 : ∀ t : Fin cfg0.N, win0_3.index t (0 : Fin 2) = 0 ∧ win0_3.index t (1 : Fin 2) = 0 :=
  (by decide +kernel : ∀ t : Fin grid0.N, _)
theorem idxB2 : ∀ t : Fin cfg0.N, win0_4.index t (0 : Fin 2) = 0 ∧ win0_4.index t (1 : Fin 2) = 0 :=
  (by decide +kernel : ∀ t : Fin grid0.N, _)
theorem idxAdj : ∀ t : Fin cfg0.N, win0_5.index t (0 : Fin 2) = t.val % 25 ∧ win0_5.index t (1 : Fin 2) = 0 :=
  (by decide +kernel : ∀ t : Fin grid0.N, _)

/-! ## The two bias rows as the region finds them

@main reshapes each bias vector to one row before the region, and nothing else writes those two arrays: the row
is the vector's elements in their own order. -/

theorem rowB1_eq (c : Dev nD) :
    (V m c main_v0 : Vec Ideal S1x80 .f32) = shapeCast S1x80 (argB1 m c) Facts₀.shapeCasts_S80_S1x80 := by
  dsimp only [Gen.V, Gen.hostOps0]; after_results; rfl

theorem rowB2_eq (c : Dev nD) :
    (V m c main_v1 : Vec Ideal S1x4 .f32) = shapeCast S1x4 (argB2 m c) Facts₀.shapeCasts_S4_S1x4 := by
  dsimp only [Gen.V, Gen.hostOps0]; after_results; rfl

/-! ## Each block read at an index

A block's coordinate on an axis is (block index) × (block extent) + (coordinate inside the block). With block
index 0 and the block as large as the array, that is the coordinate itself. -/

theorem blkX_apply (c : Dev nD) (t : Fin cfg0.N) (r : Fin 10000) (k : Fin 128) :
    blkX m c t (ix2 r k) = argX m c (ix2 r k) := by
  obtain ⟨e0, e1⟩ := idxX t
  have h : ((cfg0.win 0).blk t).view.emb (ix2 r k) = ix2 r k := by
    funext a; apply Fin.ext
    match a with
    | ⟨0, _⟩ => show win0_0.index t (0 : Fin 2) * 10000 + 1 * r.val = r.val; omega
    | ⟨1, _⟩ => show win0_0.index t (1 : Fin 2) * 128 + 1 * k.val = k.val; omega
  show V m c main_arg0 (((cfg0.win 0).blk t).view.emb (ix2 r k)) = _
  rw [h, V_main_arg0]

theorem blkW1_apply (c : Dev nD) (t : Fin cfg0.N) (k : Fin 128) (j : Fin 80) :
    blkW1 m c t (ix2 k j) = argW1 m c (ix2 k j) := by
  obtain ⟨e0, e1⟩ := idxW1 t
  have h : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 80 + 1 * j.val = j.val; omega
  show V m c main_arg2 (((cfg0.win 1).blk t).view.emb (ix2 k j)) = _
  rw [h, V_main_arg2]

/-- The first bias row: @main reshapes `b1` to [1, 80] before the region. -/
theorem blkB1_apply (c : Dev nD) (t : Fin cfg0.N) (k : Fin 80) :
    blkB1 m c t (ix2 0 k) = argB1 m c (ix1 k) := by
  obtain ⟨e0, e1⟩ := idxB1 t
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 80 + 1 * k.val = k.val; omega
  show V m c main_v0 (((cfg0.win 2).blk t).view.emb (ix2 (0 : Fin 1) k)) = _
  rw [h, rowB1_eq]
  exact shapeCast_a_1a_apply _ _ 0 k

theorem blkW2_apply (c : Dev nD) (t : Fin cfg0.N) (k : Fin 80) (j : Fin 4) :
    blkW2 m c t (ix2 k j) = argW2 m c (ix2 k j) := by
  obtain ⟨e0, e1⟩ := idxW2 t
  have h : ((cfg0.win 3).blk t).view.emb (ix2 k j) = ix2 k j := by
    funext a; apply Fin.ext
    match a with
    | ⟨0, _⟩ => show win0_3.index t (0 : Fin 2) * 80 + 1 * k.val = k.val; omega
    | ⟨1, _⟩ => show win0_3.index t (1 : Fin 2) * 4 + 1 * j.val = j.val; omega
  show V m c main_arg4 (((cfg0.win 3).blk t).view.emb (ix2 k j)) = _
  rw [h, V_main_arg4]

/-- The second bias row: @main reshapes `b2` to [1, 4] before the region. -/
theorem blkB2_apply (c : Dev nD) (t : Fin cfg0.N) (j : Fin 4) :
    blkB2 m c t (ix2 0 j) = argB2 m c (ix1 j) := by
  obtain ⟨e0, e1⟩ := idxB2 t
  have h : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 4 + 1 * j.val = j.val; omega
  show V m c main_v1 (((cfg0.win 4).blk t).view.emb (ix2 (0 : Fin 1) j)) = _
  rw [h, rowB2_eq]
  exact shapeCast_a_1a_apply _ _ 0 j

theorem adjRow_lt (t : Fin cfg0.N) (p : Fin 400) : 400 * (t.val % 25) + p.val < 10000 := by
  have := p.isLt; have := Nat.mod_lt t.val (by omega : 25 > 0); omega

/-- The adjacency block at point `t`: rows `400 (t % 25) + p`. -/
theorem blkAdj_apply (c : Dev nD) (t : Fin cfg0.N) (p : Fin 400) (k : Fin 10000) :
    blkAdj m c t (ix2 p k) = argAdj m c (ix2 ⟨400 * (t.val % 25) + p.val, adjRow_lt t p⟩ k) := by
  obtain ⟨e0, e1⟩ := idxAdj t
  have h : ((cfg0.win 5).blk t).view.emb (ix2 p k) = ix2 ⟨400 * (t.val % 25) + p.val, adjRow_lt t p⟩ k := by
    funext a; apply Fin.ext
    match a with
    | ⟨0, _⟩ => show win0_5.index t (0 : Fin 2) * 400 + 1 * p.val = 400 * (t.val % 25) + p.val; omega
    | ⟨1, _⟩ => show win0_5.index t (1 : Fin 2) * 10000 + 1 * k.val = k.val; omega
  show V m c main_arg1 (((cfg0.win 5).blk t).view.emb (ix2 p k)) = _
  rw [h, V_main_arg1]

end Cert.GcnKernel

end
-- ==== Proof.Payloads.lean ====
/-
  The kernel body's three stored values, read entry by entry on the extended reals: each matrix product
  into a zero accumulator is the plain sum over its contracted axis.
-/
import proofs.«164586_g31593779430026_cont_9to1_839_4_alg».proof.Proof.Gen.KernelIdeal.Skeleton
import proofs.«164586_g31593779430026_cont_9to1_839_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GcnKernel

open Cert.KernelIdeal Cert.KernelIdeal.Gen Idealize.ShloMosaic Idealize.ShloMosaic.ValueIdx

/-! ## The four products, each into a zero accumulator

For each dimension record: where the two operands are read for a result index and a contraction index
(four coordinate facts), then the product at `ix2 r j` as the sum over the contracted axis. -/

/-- The features times the first weights: the left operand's row is the result's row. -/
theorem lhs_xw_0 (i : S10000x80.Idx) (q : dot_S10000x128_S128x80_S10000x80_1_0_0_1_n_n.contr.Idx) :
    (dot_S10000x128_S128x80_S10000x80_1_0_0_1_n_n.lhsIdx i q 0).val = (i 0).val := by
  unfold DotDims.lhsIdx
  rw [dif_neg (show ¬(0 : Fin S10000x128.rank) ∈ dot_S10000x128_S128x80_S10000x80_1_0_0_1_n_n.lhsBatch by decide), dif_pos (show (0 : Fin S10000x128.rank) ∈ dot_S10000x128_S128x80_S10000x80_1_0_0_1_n_n.lhsNonContracting by decide)]
  rfl
/-- Its column is the contracted coordinate. -/
theorem lhs_xw_1 (i : S10000x80.Idx) (q : dot_S10000x128_S128x80_S10000x80_1_0_0_1_n_n.contr.Idx) :
    (dot_S10000x128_S128x80_S10000x80_1_0_0_1_n_n.lhsIdx i q 1).val = (q ⟨0, by decide⟩).val :=
  dot_S10000x128_S128x80_S10000x80_1_0_0_1_n_n.lhsIdx_val_of_single rfl i q
/-- The right operand's row is the contracted coordinate. -/
theorem rhs_xw_0 (i : S10000x80.Idx) (q : dot_S10000x128_S128x80_S10000x80_1_0_0_1_n_n.contr.Idx) :
    (dot_S10000x128_S128x80_S10000x80_1_0_0_1_n_n.rhsIdx i q 0).val = (q ⟨0, by decide⟩).val :=
  dot_S10000x128_S128x80_S10000x80_1_0_0_1_n_n.rhsIdx_val_of_single rfl i q
/-- Its column is the result's column. -/
theorem rhs_xw_1 (i : S10000x80.Idx) (q : dot_S10000x128_S128x80_S10000x80_1_0_0_1_n_n.contr.Idx) :
    (dot_S10000x128_S128x80_S10000x80_1_0_0_1_n_n.rhsIdx i q 1).val = (i 1).val := by
  unfold DotDims.rhsIdx
  rw [dif_neg (show ¬(1 : Fin S128x80.rank) ∈ dot_S10000x128_S128x80_S10000x80_1_0_0_1_n_n.rhsBatch by decide), dif_pos (show (1 : Fin S128x80.rank) ∈ dot_S10000x128_S128x80_S10000x80_1_0_0_1_n_n.rhsNonContracting by decide)]
  rfl

/-- `x · W1` at row `r`, column `j`. -/
theorem matmul_xw_apply (u : FVec Ideal S10000x128 .f32) (v : FVec Ideal S128x80 .f32) (r : Fin 10000) (j : Fin 80) :
    matmul (F := Ideal) dot_S10000x128_S128x80_S10000x80_1_0_0_1_n_n none u v (constant (F := Ideal) S10000x80 .f32 0x00000000#32) (ix2 r j)
      = ∑ k : Fin 128, u (ix2 r k) * v (ix2 k j) := by
  show FloatOps.matmul dot_S10000x128_S128x80_S10000x80_1_0_0_1_n_n none u v (constant (F := Ideal) S10000x80 .f32 0x00000000#32) (ix2 r j) = _
  rw [Ideal.matmul_constant_zero_apply, ← Equiv.sum_comp (contrEquiv1 dot_S10000x128_S128x80_S10000x80_1_0_0_1_n_n 128 rfl rfl).symm]
  refine Finset.sum_congr rfl fun k _ => ?_
  have hk := contrEquiv1_symm_val dot_S10000x128_S128x80_S10000x80_1_0_0_1_n_n 128 rfl rfl k
  have el : dot_S10000x128_S128x80_S10000x80_1_0_0_1_n_n.lhsIdx (ix2 r j) ((contrEquiv1 dot_S10000x128_S128x80_S10000x80_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S10000x128_S128x80_S10000x80_1_0_0_1_n_n.rhsIdx (ix2 r j) ((contrEquiv1 dot_S10000x128_S128x80_S10000x80_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

/-- The adjacency rows times the first-layer support: the left operand's row is the result's row. -/
theorem lhs_as80_0 (i : S400x80.Idx) (q : dot_S400x10000_S10000x80_S400x80_1_0_0_1_n_n.contr.Idx) :
    (dot_S400x10000_S10000x80_S400x80_1_0_0_1_n_n.lhsIdx i q 0).val = (i 0).val := by
  unfold DotDims.lhsIdx
  rw [dif_neg (show ¬(0 : Fin S400x10000.rank) ∈ dot_S400x10000_S10000x80_S400x80_1_0_0_1_n_n.lhsBatch by decide), dif_pos (show (0 : Fin S400x10000.rank) ∈ dot_S400x10000_S10000x80_S400x80_1_0_0_1_n_n.lhsNonContracting by decide)]
  rfl
/-- Its column is the contracted coordinate. -/
theorem lhs_as80_1 (i : S400x80.Idx) (q : dot_S400x10000_S10000x80_S400x80_1_0_0_1_n_n.contr.Idx) :
    (dot_S400x10000_S10000x80_S400x80_1_0_0_1_n_n.lhsIdx i q 1).val = (q ⟨0, by decide⟩).val :=
  dot_S400x10000_S10000x80_S400x80_1_0_0_1_n_n.lhsIdx_val_of_single rfl i q
/-- The right operand's row is the contracted coordinate. -/
theorem rhs_as80_0 (i : S400x80.Idx) (q : dot_S400x10000_S10000x80_S400x80_1_0_0_1_n_n.contr.Idx) :
    (dot_S400x10000_S10000x80_S400x80_1_0_0_1_n_n.rhsIdx i q 0).val = (q ⟨0, by decide⟩).val :=
  dot_S400x10000_S10000x80_S400x80_1_0_0_1_n_n.rhsIdx_val_of_single rfl i q
/-- Its column is the result's column. -/
theorem rhs_as80_1 (i : S400x80.Idx) (q : dot_S400x10000_S10000x80_S400x80_1_0_0_1_n_n.contr.Idx) :
    (dot_S400x10000_S10000x80_S400x80_1_0_0_1_n_n.rhsIdx i q 1).val = (i 1).val := by
  unfold DotDims.rhsIdx
  rw [dif_neg (show ¬(1 : Fin S10000x80.rank) ∈ dot_S400x10000_S10000x80_S400x80_1_0_0_1_n_n.rhsBatch by decide), dif_pos (show (1 : Fin S10000x80.rank) ∈ dot_S400x10000_S10000x80_S400x80_1_0_0_1_n_n.rhsNonContracting by decide)]
  rfl

/-- `a · s` for the 80-column support at row `r`, column `j`. -/
theorem matmul_as80_apply (u : FVec Ideal S400x10000 .f32) (v : FVec Ideal S10000x80 .f32) (r : Fin 400) (j : Fin 80) :
    matmul (F := Ideal) dot_S400x10000_S10000x80_S400x80_1_0_0_1_n_n none u v (constant (F := Ideal) S400x80 .f32 0x00000000#32) (ix2 r j)
      = ∑ k : Fin 10000, u (ix2 r k) * v (ix2 k j) := by
  show FloatOps.matmul dot_S400x10000_S10000x80_S400x80_1_0_0_1_n_n none u v (constant (F := Ideal) S400x80 .f32 0x00000000#32) (ix2 r j) = _
  rw [Ideal.matmul_constant_zero_apply, ← Equiv.sum_comp (contrEquiv1 dot_S400x10000_S10000x80_S400x80_1_0_0_1_n_n 10000 rfl rfl).symm]
  refine Finset.sum_congr rfl fun k _ => ?_
  have hk := contrEquiv1_symm_val dot_S400x10000_S10000x80_S400x80_1_0_0_1_n_n 10000 rfl rfl k
  have el : dot_S400x10000_S10000x80_S400x80_1_0_0_1_n_n.lhsIdx (ix2 r j) ((contrEquiv1 dot_S400x10000_S10000x80_S400x80_1_0_0_1_n_n 10000 rfl rfl).symm k) = ix2 r k := funext fun a => Fin.ext (by
    match a with
    | ⟨0, _⟩ => exact lhs_as80_0 _ _
    | ⟨1, _⟩ => exact (lhs_as80_1 _ _).trans hk)
  have er : dot_S400x10000_S10000x80_S400x80_1_0_0_1_n_n.rhsIdx (ix2 r j) ((contrEquiv1 dot_S400x10000_S10000x80_S400x80_1_0_0_1_n_n 10000 rfl rfl).symm k) = ix2 k j := funext fun a => Fin.ext (by
    match a with
    | ⟨0, _⟩ => exact (rhs_as80_0 _ _).trans hk
    | ⟨1, _⟩ => exact rhs_as80_1 _ _)
  rw [el, er]

/-- The hidden rows times the second weights: the left operand's row is the result's row. -/
theorem lhs_hw_0 (i : S400x4.Idx) (q : dot_S400x80_S80x4_S400x4_1_0_0_1_n_n.contr.Idx) :
    (dot_S400x80_S80x4_S400x4_1_0_0_1_n_n.lhsIdx i q 0).val = (i 0).val := by
  unfold DotDims.lhsIdx
  rw [dif_neg (show ¬(0 : Fin S400x80.rank) ∈ dot_S400x80_S80x4_S400x4_1_0_0_1_n_n.lhsBatch by decide), dif_pos (show (0 : Fin S400x80.rank) ∈ dot_S400x80_S80x4_S400x4_1_0_0_1_n_n.lhsNonContracting by decide)]
  rfl
/-- Its column is the contracted coordinate. -/
theorem lhs_hw_1 (i : S400x4.Idx) (q : dot_S400x80_S80x4_S400x4_1_0_0_1_n_n.contr.Idx) :
    (dot_S400x80_S80x4_S400x4_1_0_0_1_n_n.lhsIdx i q 1).val = (q ⟨0, by decide⟩).val :=
  dot_S400x80_S80x4_S400x4_1_0_0_1_n_n.lhsIdx_val_of_single rfl i q
/-- The right operand's row is the contracted coordinate. -/
theorem rhs_hw_0 (i : S400x4.Idx) (q : dot_S400x80_S80x4_S400x4_1_0_0_1_n_n.contr.Idx) :
    (dot_S400x80_S80x4_S400x4_1_0_0_1_n_n.rhsIdx i q 0).val = (q ⟨0, by decide⟩).val :=
  dot_S400x80_S80x4_S400x4_1_0_0_1_n_n.rhsIdx_val_of_single rfl i q
/-- Its column is the result's column. -/
theorem rhs_hw_1 (i : S400x4.Idx) (q : dot_S400x80_S80x4_S400x4_1_0_0_1_n_n.contr.Idx) :
    (dot_S400x80_S80x4_S400x4_1_0_0_1_n_n.rhsIdx i q 1).val = (i 1).val := by
  unfold DotDims.rhsIdx
  rw [dif_neg (show ¬(1 : Fin S80x4.rank) ∈ dot_S400x80_S80x4_S400x4_1_0_0_1_n_n.rhsBatch by decide), dif_pos (show (1 : Fin S80x4.rank) ∈ dot_S400x80_S80x4_S400x4_1_0_0_1_n_n.rhsNonContracting by decide)]
  rfl

/-- `h · W2` at row `r`, column `j`. -/
theorem matmul_hw_apply (u : FVec Ideal S400x80 .f32) (v : FVec Ideal S80x4 .f32) (r : Fin 400) (j : Fin 4) :
    matmul (F := Ideal) dot_S400x80_S80x4_S400x4_1_0_0_1_n_n none u v (constant (F := Ideal) S400x4 .f32 0x00000000#32) (ix2 r j)
      = ∑ k : Fin 80, u (ix2 r k) * v (ix2 k j) := by
  show FloatOps.matmul dot_S400x80_S80x4_S400x4_1_0_0_1_n_n none u v (constant (F := Ideal) S400x4 .f32 0x00000000#32) (ix2 r j) = _
  rw [Ideal.matmul_constant_zero_apply, ← Equiv.sum_comp (contrEquiv1 dot_S400x80_S80x4_S400x4_1_0_0_1_n_n 80 rfl rfl).symm]
  refine Finset.sum_congr rfl fun k _ => ?_
  have hk := contrEquiv1_symm_val dot_S400x80_S80x4_S400x4_1_0_0_1_n_n 80 rfl rfl k
  have el : dot_S400x80_S80x4_S400x4_1_0_0_1_n_n.lhsIdx (ix2 r j) ((contrEquiv1 dot_S400x80_S80x4_S400x4_1_0_0_1_n_n 80 rfl rfl).symm k) = ix2 r k := funext fun a => Fin.ext (by
    match a with
    | ⟨0, _⟩ => exact lhs_hw_0 _ _
    | ⟨1, _⟩ => exact (lhs_hw_1 _ _).trans hk)
  have er : dot_S400x80_S80x4_S400x4_1_0_0_1_n_n.rhsIdx (ix2 r j) ((contrEquiv1 dot_S400x80_S80x4_S400x4_1_0_0_1_n_n 80 rfl rfl).symm k) = ix2 k j := funext fun a => Fin.ext (by
    match a with
    | ⟨0, _⟩ => exact (rhs_hw_0 _ _).trans hk
    | ⟨1, _⟩ => exact rhs_hw_1 _ _)
  rw [el, er]

/-- The adjacency rows times the second-layer support: the left operand's row is the result's row. -/
theorem lhs_as4_0 (i : S400x4.Idx) (q : dot_S400x10000_S10000x4_S400x4_1_0_0_1_n_n.contr.Idx) :
    (dot_S400x10000_S10000x4_S400x4_1_0_0_1_n_n.lhsIdx i q 0).val = (i 0).val := by
  unfold DotDims.lhsIdx
  rw [dif_neg (show ¬(0 : Fin S400x10000.rank) ∈ dot_S400x10000_S10000x4_S400x4_1_0_0_1_n_n.lhsBatch by decide), dif_pos (show (0 : Fin S400x10000.rank) ∈ dot_S400x10000_S10000x4_S400x4_1_0_0_1_n_n.lhsNonContracting by decide)]
  rfl
/-- Its column is the contracted coordinate. -/
theorem lhs_as4_1 (i : S400x4.Idx) (q : dot_S400x10000_S10000x4_S400x4_1_0_0_1_n_n.contr.Idx) :
    (dot_S400x10000_S10000x4_S400x4_1_0_0_1_n_n.lhsIdx i q 1).val = (q ⟨0, by decide⟩).val :=
  dot_S400x10000_S10000x4_S400x4_1_0_0_1_n_n.lhsIdx_val_of_single rfl i q
/-- The right operand's row is the contracted coordinate. -/
theorem rhs_as4_0 (i : S400x4.Idx) (q : dot_S400x10000_S10000x4_S400x4_1_0_0_1_n_n.contr.Idx) :
    (dot_S400x10000_S10000x4_S400x4_1_0_0_1_n_n.rhsIdx i q 0).val = (q ⟨0, by decide⟩).val :=
  dot_S400x10000_S10000x4_S400x4_1_0_0_1_n_n.rhsIdx_val_of_single rfl i q
/-- Its column is the result's column. -/
theorem rhs_as4_1 (i : S400x4.Idx) (q : dot_S400x10000_S10000x4_S400x4_1_0_0_1_n_n.contr.Idx) :
    (dot_S400x10000_S10000x4_S400x4_1_0_0_1_n_n.rhsIdx i q 1).val = (i 1).val := by
  unfold DotDims.rhsIdx
  rw [dif_neg (show ¬(1 : Fin S10000x4.rank) ∈ dot_S400x10000_S10000x4_S400x4_1_0_0_1_n_n.rhsBatch by decide), dif_pos (show (1 : Fin S10000x4.rank) ∈ dot_S400x10000_S10000x4_S400x4_1_0_0_1_n_n.rhsNonContracting by decide)]
  rfl

/-- `a · s` for the 4-column support at row `r`, column `j`. -/
theorem matmul_as4_apply (u : FVec Ideal S400x10000 .f32) (v : FVec Ideal S10000x4 .f32) (r : Fin 400) (j : Fin 4) :
    matmul (F := Ideal) dot_S400x10000_S10000x4_S400x4_1_0_0_1_n_n none u v (constant (F := Ideal) S400x4 .f32 0x00000000#32) (ix2 r j)
      = ∑ k : Fin 10000, u (ix2 r k) * v (ix2 k j) := by
  show FloatOps.matmul dot_S400x10000_S10000x4_S400x4_1_0_0_1_n_n none u v (constant (F := Ideal) S400x4 .f32 0x00000000#32) (ix2 r j) = _
  rw [Ideal.matmul_constant_zero_apply, ← Equiv.sum_comp (contrEquiv1 dot_S400x10000_S10000x4_S400x4_1_0_0_1_n_n 10000 rfl rfl).symm]
  refine Finset.sum_congr rfl fun k _ => ?_
  have hk := contrEquiv1_symm_val dot_S400x10000_S10000x4_S400x4_1_0_0_1_n_n 10000 rfl rfl k
  have el : dot_S400x10000_S10000x4_S400x4_1_0_0_1_n_n.lhsIdx (ix2 r j) ((contrEquiv1 dot_S400x10000_S10000x4_S400x4_1_0_0_1_n_n 10000 rfl rfl).symm k) = ix2 r k := funext fun a => Fin.ext (by
    match a with
    | ⟨0, _⟩ => exact lhs_as4_0 _ _
    | ⟨1, _⟩ => exact (lhs_as4_1 _ _).trans hk)
  have er : dot_S400x10000_S10000x4_S400x4_1_0_0_1_n_n.rhsIdx (ix2 r j) ((contrEquiv1 dot_S400x10000_S10000x4_S400x4_1_0_0_1_n_n 10000 rfl rfl).symm k) = ix2 k j := funext fun a => Fin.ext (by
    match a with
    | ⟨0, _⟩ => exact (rhs_as4_0 _ _).trans hk
    | ⟨1, _⟩ => exact rhs_as4_1 _ _)
  rw [el, er]

/-! ## The three stored values -/

/-- The first-layer support `x · W1` the body stores at the grid's first point. -/
theorem pay1_apply (x : Vec Ideal S10000x128 .f32) (w1 : Vec Ideal S128x80 .f32) (r : Fin 10000) (j : Fin 80) :
    k0_pay1 (F := Ideal) x w1 (ix2 r j) = ∑ k : Fin 128, x (ix2 r k) * w1 (ix2 k j) := by
  unfold k0_pay1
  rw [shapeCast_self]
  exact matmul_xw_apply x w1 r j

/-- A 400-row slice of the second-layer support: `relu (a · s + b1) · W2` for the adjacency rows `a`. -/
theorem pay2_apply (a : Vec Ideal S400x10000 .f32) (s : Vec Ideal S10000x80 .f32) (b1r : Vec Ideal S1x80 .f32)
    (w2 : Vec Ideal S80x4 .f32) (p : Fin 400) (j : Fin 4) :
    k0_pay2 (F := Ideal) a s b1r w2 (ix2 p j)
      = ∑ k : Fin 80, max ((∑ k' : Fin 10000, a (ix2 p k') * s (ix2 k' k)) + b1r (ix2 0 k)) Cert.Gcn.zero32 * w2 (ix2 k j) := by
  unfold k0_pay2
  rw [shapeCast_self, matmul_hw_apply]
  refine Finset.sum_congr rfl fun k _ => ?_
  rw [maximumf_apply, addf_apply, broadcast_apply, matmul_as80_apply, shapeCast_self, broadcastTo_1b_ab_apply]
  rfl

/-- A 400-row block of the result: `a · s + b2` for the adjacency rows `a`. -/
theorem pay3_apply (a : Vec Ideal S400x10000 .f32) (s : Vec Ideal S10000x4 .f32) (b2r : Vec Ideal S1x4 .f32)
    (p : Fin 400) (j : Fin 4) :
    k0_pay3 (F := Ideal) a s b2r (ix2 p j) = (∑ k : Fin 10000, a (ix2 p k) * s (ix2 k j)) + b2r (ix2 0 j) := by
  unfold k0_pay3
  rw [addf_apply, matmul_as4_apply, shapeCast_self, broadcastTo_1b_ab_apply]

end Cert.GcnKernel

end
-- ==== Proof.KI.Value.lean ====
/-
  The kernel's result array, entry by entry: it is the specification of the six arguments.

  The first scratch holds `support1`; the second, slice by slice, `support2 (hidden adj support1 b1) W2` — row
  `r` of a slice depends on row `r` of `adj` alone, so cutting `adj` into 400-row blocks changes nothing; a
  phase-1 point's block is `layer2` on its 400 rows; the 25 blocks written back tile the result.
-/
import proofs.«164586_g31593779430026_cont_9to1_839_4_alg».proof.Proof.KI.Blocks
import proofs.«164586_g31593779430026_cont_9to1_839_4_alg».proof.Proof.Payloads

set_option maxRecDepth 16384

noncomputable section

namespace Cert.GcnKernel

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The first-layer support the kernel keeps in scratch is the specification's. -/
theorem S1val_apply (c : Dev nD) (r : Fin 10000) (j : Fin 80) :
    S1val m c (ix2 r j) = Cert.Gcn.support1 (argX m c) (argW1 m c) r j := by
  show k0_pay1 (F := Ideal) (blkX m c p0) (blkW1 m c p0) (ix2 r j) = ∑ k : Fin 128, argX m c (ix2 r k) * argW1 m c (ix2 k j)
  rw [pay1_apply]
  exact Finset.sum_congr rfl fun k _ => congrArg₂ (· * ·) (blkX_apply m c p0 r k) (blkW1_apply m c p0 k j)

/-- Row `p` of the slice point `t` stores is row `400 (t % 25) + p` of the specification's second-layer
    support: the product's row depends on that row of the adjacency alone. -/
theorem s2blk_apply (c : Dev nD) (t : Fin cfg0.N) (p : Fin 400) (j : Fin 4) :
    s2blk m c t (ix2 p j)
      = Cert.Gcn.s2Of (argX m c) (argAdj m c) (argW1 m c) (argB1 m c) (argW2 m c) ⟨400 * (t.val % 25) + p.val, adjRow_lt t p⟩ j := by
  show k0_pay2 (F := Ideal) (blkAdj m c t) (S1val m c) (blkB1 m c t) (blkW2 m c t) (ix2 p j) = _
  rw [pay2_apply]
  unfold Cert.Gcn.s2Of Cert.Gcn.support2 Cert.Gcn.hidden
  refine Finset.sum_congr rfl fun k _ => ?_
  have hs : (∑ k' : Fin 10000, blkAdj m c t (ix2 p k') * S1val m c (ix2 k' k))
      = ∑ k' : Fin 10000, argAdj m c (ix2 ⟨400 * (t.val % 25) + p.val, adjRow_lt t p⟩ k') * Cert.Gcn.support1 (argX m c) (argW1 m c) k' k :=
    Finset.sum_congr rfl fun k' _ => congrArg₂ (· * ·) (blkAdj_apply m c t p k') (S1val_apply m c k' k)
  rw [hs, blkB1_apply, blkW2_apply]

/-- An index of the second-layer support within its slice, by coordinates. -/
theorem locOf_ix2 (r : Fin 10000) (j : Fin 4) :
    locOf (ix2 r j) = ix2 (⟨r.val % 400, Nat.mod_lt _ (by omega)⟩ : Fin 400) j := by
  funext a
  match a with
  | ⟨0, _⟩ => rfl
  | ⟨1, _⟩ => rfl

/-- The second-layer support the kernel assembles slice by slice is the specification's. -/
theorem S2val_apply (c : Dev nD) (r : Fin 10000) (j : Fin 4) :
    S2val m c (ix2 r j) = Cert.Gcn.s2Of (argX m c) (argAdj m c) (argW1 m c) (argB1 m c) (argW2 m c) r j := by
  have hr : r.val < 10000 := r.isLt
  show s2blk m c (ptOf (ix2 r j)) (locOf (ix2 r j)) = _
  rw [locOf_ix2, s2blk_apply]
  exact congrArg (fun q => Cert.Gcn.s2Of (argX m c) (argAdj m c) (argW1 m c) (argB1 m c) (argW2 m c) q j)
    (Fin.ext (by show 400 * (r.val / 400 % 25) + r.val % 400 = r.val; omega))

theorem outRow_lt (t : Fin cfg0.N) (p : Fin 400) : 400 * (t.val % 25) + p.val < 10000 := adjRow_lt t p

/-- A phase-1 point's block is the specification on its 400 rows. -/
theorem outBlk_apply (c : Dev nD) (t : Fin cfg0.N) (p : Fin 400) (j : Fin 4) :
    outBlk m c t (ix2 p j)
      = Cert.Gcn.emb (argX m c) (argAdj m c) (argW1 m c) (argB1 m c) (argW2 m c) (argB2 m c)
          (ix2 ⟨400 * (t.val % 25) + p.val, outRow_lt t p⟩ j) := by
  show k0_pay3 (F := Ideal) (blkAdj m c t) (S2val m c) (blkB2 m c t) (ix2 p j) = _
  rw [pay3_apply]
  unfold Cert.Gcn.emb Cert.Gcn.layer2
  have hs : (∑ k : Fin 10000, blkAdj m c t (ix2 p k) * S2val m c (ix2 k j))
      = ∑ k : Fin 10000, argAdj m c (ix2 ⟨400 * (t.val % 25) + p.val, outRow_lt t p⟩ k)
          * Cert.Gcn.s2Of (argX m c) (argAdj m c) (argW1 m c) (argB1 m c) (argW2 m c) k j :=
    Finset.sum_congr rfl fun k _ => congrArg₂ (· * ·) (blkAdj_apply m c t p k) (S2val_apply m c k j)
  rw [hs, blkB2_apply]

/-- The specification of the launch contents, as the result array's buffer. -/
abbrev embOf (c : Dev nD) : Buf (Elt Ideal) ((c.tc : Thread nD τ).loc main_v2) :=
  Cert.Gcn.emb (argX m c) (argAdj m c) (argW1 m c) (argB1 m c) (argW2 m c) (argB2 m c)

/-- The output's block index at a phase-1 point: block `t % 25` of the rows, the one block of the columns. -/
theorem outIdx : ∀ t : Fin cfg0.N, 25 ≤ t.val → win0_6.index t (0 : Fin 2) = t.val % 25 ∧ win0_6.index t (1 : Fin 2) = 0 :=
  (by decide +kernel : ∀ t : Fin grid0.N, 25 ≤ t.val → win0_6.index t (0 : Fin 2) = t.val % 25 ∧ win0_6.index t (1 : Fin 2) = 0)

/-- What a phase-1 point writes back is its block of the specification: the block's row `p` sits at row
    `400 (t % 25) + p` of the array, its column `j` at column `j`. -/
theorem flushed_eq (c : Dev nD) (t : Fin cfg0.N) (hf : (cfg0.win 6).flush t = true) :
    (dats m 0 c).flushed 6 t = ((cfg0.win 6).blk t).view.read (Elt Ideal) (embOf m c) := by
  have h25 : 25 ≤ t.val := by rw [flush0_6 t] at hf; exact of_decide_eq_true hf
  obtain ⟨e0, e1⟩ := outIdx t h25
  show (cfg0.win 6).cut (grid0.coords t) ((dats m 0 c).after 6 t) = _
  rw [after0_6]
  refine funext fun (y : S400x4.Idx) => ?_
  obtain ⟨p, j, rfl⟩ : ∃ (p : Fin 400) (j : Fin 4), y = ix2 p j := ⟨y 0, y 1, eq_ix2 y⟩
  show outBlk m c t (ix2 p j) = embOf m c (((cfg0.win 6).blk t).view.emb (ix2 p j))
  rw [outBlk_apply]
  refine congrArg (embOf m c) (funext fun a => Fin.ext ?_)
  revert a
  refine Fin.forall_fin_two.mpr ⟨?_, ?_⟩
  · show 400 * (t.val % 25) + p.val = win0_6.index t (0 : Fin 2) * 400 + 1 * p.val
    rw [e0]; omega
  · show j.val = win0_6.index t (1 : Fin 2) * 4 + 1 * j.val
    rw [e1]; omega

/-- An index of the array is in point `t`'s block iff each coordinate is in the block's range on its axis. -/
theorem mem_blk (t : Fin cfg0.N) (i : S10000x4.Idx) :
    i ∈ ((cfg0.win 6).blk t).view.set ↔ ∀ a : Fin 2, win0_6.index t a * S400x4.size a ≤ (i a).val ∧ (i a).val < win0_6.index t a * S400x4.size a + S400x4.size a := by
  show i ∈ ((View.whole main_v2).slice (win0_6.rect t)).set ↔ _
  rw [View.set_slice_whole, Rect.mem_set_unit]
  exact Iff.rfl

/-- The 25 blocks phase 1 writes back tile the array: row `r` is in the block of point `25 + r / 400`. -/
theorem covered (i : S10000x4.Idx) :
    ∃ t : Fin cfg0.N, (cfg0.win 6).flush t = true ∧ i ∈ ((cfg0.win 6).blk t).view.set := by
  have hi0 : (i 0).val < 10000 := (i 0).isLt
  have hi1 : (i 1).val < 4 := (i 1).isLt
  have hN : cfg0.N = 50 := N_0
  have h25 : 25 ≤ 25 + (i 0).val / 400 := Nat.le_add_right _ _
  obtain ⟨e0, e1⟩ := outIdx ⟨25 + (i 0).val / 400, by omega⟩ h25
  refine ⟨⟨25 + (i 0).val / 400, by omega⟩, by rw [flush0_6]; exact decide_eq_true h25, ?_⟩
  rw [mem_blk]
  refine Fin.forall_fin_two.mpr ⟨?_, ?_⟩
  · show win0_6.index ⟨25 + (i 0).val / 400, _⟩ (0 : Fin 2) * 400 ≤ (i 0).val
      ∧ (i 0).val < win0_6.index ⟨25 + (i 0).val / 400, _⟩ (0 : Fin 2) * 400 + 400
    rw [e0]
    show (25 + (i 0).val / 400) % 25 * 400 ≤ (i 0).val ∧ (i 0).val < (25 + (i 0).val / 400) % 25 * 400 + 400
    omega
  · show win0_6.index ⟨25 + (i 0).val / 400, _⟩ (1 : Fin 2) * 4 ≤ (i 1).val
      ∧ (i 1).val < win0_6.index ⟨25 + (i 0).val / 400, _⟩ (1 : Fin 2) * 4 + 4
    rw [e1]; omega

/-- The result array after the run's write-backs is the specification. -/
theorem final (c : Dev nD) : (dats m 0 c).arrAt 6 cfg0.N = embOf m c :=
  (dats m 0 c).arrAt_eq_of_cover 6 (embOf m c) (flushed_eq m c) covered

/-- The idealized kernel's run with its result named by the specification. -/
theorem run : θ_run defs (onTc (τ := τ) (main (F := Ideal))) ⟨m, fun _ => 0, ρ⟩ fun r => ∀ c : Dev nD,
      r.2.mem ((c.tc : Thread nD τ).loc main_v2) = embOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.GcnKernel

end
-- ==== Proof.RefValue.lean ====
/-
  The reference's run, read back entry by entry: its result is `Cert.Gcn.emb` of its arguments.

  The reference is a chain of thirteen array operations. Read at an index, each product stage is a sum over
  its whole contracted axis in the axis's own order, each bias stage reads the bias at the column, and the
  rectifier compares with the zero word. Those are, stage by stage, the specification's `support1`, `hidden`,
  `support2` and `layer2`; no sum is regrouped and no law of the extended reals is used.
-/
import proofs.«164586_g31593779430026_cont_9to1_839_4_alg».proof.Proof.Gen.ReferenceIdeal.Run
import proofs.«164586_g31593779430026_cont_9to1_839_4_alg».proof.Proof.Gen.ReferenceIdeal.Read
import proofs.«164586_g31593779430026_cont_9to1_839_4_alg».proof.Proof.Spec

noncomputable section

namespace Cert.GcnRef

open Cert.ReferenceIdeal Cert.ReferenceIdeal.Gen Idealize.ShloMosaic Idealize.ShloMosaic.TcCoe Idealize.SL.Sem
open Idealize.ShloMosaic.ValueIdx
open Cert.ReferenceIdeal.Read

/-! ## The index functions of the stages, at coordinates -/

/-- A product's left index at row `r`, contracted position `k`, is `(r, k)` … -/
theorem lidx_v0 (r : Fin 10000) (j : Fin 80) (k : Fin 128) : lidx_main_v0 (ix2 r j) k = ix2 r k := by
  funext a; match a with | ⟨0, _⟩ => rfl | ⟨1, _⟩ => rfl
/-- … and its right index at column `j` is `(k, j)`. -/
theorem ridx_v0 (r : Fin 10000) (j : Fin 80) (k : Fin 128) : ridx_main_v0 (ix2 r j) k = ix2 k j := by
  funext a; match a with | ⟨0, _⟩ => rfl | ⟨1, _⟩ => rfl
theorem lidx_v1 (r : Fin 10000) (j : Fin 80) (k : Fin 10000) : lidx_main_v1 (ix2 r j) k = ix2 r k := by
  funext a; match a with | ⟨0, _⟩ => rfl | ⟨1, _⟩ => rfl
theorem ridx_v1 (r : Fin 10000) (j : Fin 80) (k : Fin 10000) : ridx_main_v1 (ix2 r j) k = ix2 k j := by
  funext a; match a with | ⟨0, _⟩ => rfl | ⟨1, _⟩ => rfl
theorem lidx_v7 (r : Fin 10000) (j : Fin 4) (k : Fin 80) : lidx_main_v7 (ix2 r j) k = ix2 r k := by
  funext a; match a with | ⟨0, _⟩ => rfl | ⟨1, _⟩ => rfl
theorem ridx_v7 (r : Fin 10000) (j : Fin 4) (k : Fin 80) : ridx_main_v7 (ix2 r j) k = ix2 k j := by
  funext a; match a with | ⟨0, _⟩ => rfl | ⟨1, _⟩ => rfl
theorem lidx_v8 (r : Fin 10000) (j : Fin 4) (k : Fin 10000) : lidx_main_v8 (ix2 r j) k = ix2 r k := by
  funext a; match a with | ⟨0, _⟩ => rfl | ⟨1, _⟩ => rfl
theorem ridx_v8 (r : Fin 10000) (j : Fin 4) (k : Fin 10000) : ridx_main_v8 (ix2 r j) k = ix2 k j := by
  funext a; match a with | ⟨0, _⟩ => rfl | ⟨1, _⟩ => rfl
/-- A bias broadcast along the rows reads the bias at the column: first layer … -/
theorem idx_v3 (r : Fin 10000) (j : Fin 80) : idx_main_v2 (idx_main_v3 (ix2 r j)) = ix1 j := by
  funext a; match a with | ⟨0, _⟩ => rfl
/-- … and second layer. -/
theorem idx_v10 (r : Fin 10000) (j : Fin 4) : idx_main_v9 (idx_main_v10 (ix2 r j)) = ix1 j := by
  funext a; match a with | ⟨0, _⟩ => rfl

/-! ## The stages, at coordinates -/

section Stages

variable (x0 : (⟨S10000x128, .f32⟩ : BufTy).Contents (Elt Ideal)) (x1 : (⟨S10000x10000, .f32⟩ : BufTy).Contents (Elt Ideal))
  (x2 : (⟨S128x80, .f32⟩ : BufTy).Contents (Elt Ideal)) (x3 : (⟨S80, .f32⟩ : BufTy).Contents (Elt Ideal))
  (x4 : (⟨S80x4, .f32⟩ : BufTy).Contents (Elt Ideal)) (x5 : (⟨S4, .f32⟩ : BufTy).Contents (Elt Ideal))

/-- `x · W1`. -/
theorem v0_at (r : Fin 10000) (j : Fin 80) :
    val_main_v0 (F := Ideal) x0 x2 (ix2 r j) = Cert.Gcn.support1 x0 x2 r j := by
  rw [val_main_v0_apply]
  unfold Cert.Gcn.support1
  refine Finset.sum_congr rfl fun k _ => ?_
  rw [lidx_v0, ridx_v0]

/-- The first layer's bias at `(r, j)` is `b1 j`. -/
theorem v3_at (r : Fin 10000) (j : Fin 80) : val_main_v3 (F := Ideal) x3 (ix2 r j) = x3 (ix1 j) := by
  rw [val_main_v3_apply, val_main_v2_apply, idx_v3]

/-- The rectifier's other operand is the zero word everywhere. -/
theorem v5_at (i : S10000x80.Idx) : val_main_v5 (F := Ideal) i = Cert.Gcn.zero32 := by
  rw [val_main_v5_apply, val_main_cst_apply]
  rfl

/-- `relu (adj · (x · W1) + b1)`. -/
theorem v6_at (r : Fin 10000) (j : Fin 80) :
    val_main_v6 (F := Ideal) x0 x1 x2 x3 (ix2 r j) = Cert.Gcn.hidden x1 (Cert.Gcn.support1 x0 x2) x3 r j := by
  rw [val_main_v6_apply, val_main_v4_apply, val_main_v1_apply, v3_at, v5_at, Ideal.maximumf_def, Ideal.addf_def]
  unfold Cert.Gcn.hidden
  congr 2
  refine Finset.sum_congr rfl fun k _ => ?_
  rw [lidx_v1, ridx_v1, v0_at]

/-- `h · W2`. -/
theorem v7_at (r : Fin 10000) (j : Fin 4) :
    val_main_v7 (F := Ideal) x0 x1 x2 x3 x4 (ix2 r j) = Cert.Gcn.s2Of x0 x1 x2 x3 x4 r j := by
  rw [val_main_v7_apply]
  unfold Cert.Gcn.s2Of Cert.Gcn.support2
  refine Finset.sum_congr rfl fun k _ => ?_
  rw [lidx_v7, ridx_v7, v6_at]

/-- The second layer's bias at `(r, j)` is `b2 j`. -/
theorem v10_at (r : Fin 10000) (j : Fin 4) : val_main_v10 (F := Ideal) x5 (ix2 r j) = x5 (ix1 j) := by
  rw [val_main_v10_apply, val_main_v9_apply, idx_v10]

/-- `adj · (h · W2) + b2`. -/
theorem v11_at (r : Fin 10000) (j : Fin 4) :
    val_main_v11 (F := Ideal) x0 x1 x2 x3 x4 x5 (ix2 r j)
      = Cert.Gcn.layer2 x1 (Cert.Gcn.s2Of x0 x1 x2 x3 x4) x5 r j := by
  rw [val_main_v11_apply, val_main_v8_apply, v10_at, Ideal.addf_def]
  unfold Cert.Gcn.layer2
  congr 1
  refine Finset.sum_congr rfl fun k _ => ?_
  rw [lidx_v8, ridx_v8, v7_at]

end Stages

/-- The reference's last stage, at the extended reals, is the specification of its six arguments. -/
theorem val_eq_emb (x0 : (⟨S10000x128, .f32⟩ : BufTy).Contents (Elt Ideal)) (x1 : (⟨S10000x10000, .f32⟩ : BufTy).Contents (Elt Ideal))
    (x2 : (⟨S128x80, .f32⟩ : BufTy).Contents (Elt Ideal)) (x3 : (⟨S80, .f32⟩ : BufTy).Contents (Elt Ideal))
    (x4 : (⟨S80x4, .f32⟩ : BufTy).Contents (Elt Ideal)) (x5 : (⟨S4, .f32⟩ : BufTy).Contents (Elt Ideal)) :
    Cert.ReferenceIdeal.Read.val_main_v11 (F := Ideal) x0 x1 x2 x3 x4 x5 = Cert.Gcn.emb x0 x1 x2 x3 x4 x5 := by
  funext i
  obtain ⟨r, j, rfl⟩ : ∃ (r : Fin 10000) (j : Fin 4), i = ix2 r j := ⟨i 0, i 1, eq_ix2 i⟩
  rw [v11_at]
  rfl

/-- The reference's run with its result named by the specification. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11)
        = Cert.Gcn.emb (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v11_eq (F := Ideal) _ _ _ _ _ _).trans (val_eq_emb _ _ _ _ _ _)), (h c).2⟩)
    (Cert.ReferenceIdeal.Value.run (F := Ideal) m ρ)

end Cert.GcnRef

end
-- ==== Proof.lean ====
/-
  A two-layer graph convolution over a dense 10000 × 10000 adjacency matrix, fused into one pipelined kernel,
  against the plain four-matmul reference.

  The kernel runs a 2 × 25 grid. Phase 0 computes `S1 = x · W1` once into a scratch buffer and then, block by
  block of 400 adjacency rows, `S2 = relu (adj · S1 + b1) · W2` into a second scratch buffer; phase 1 computes, block
  by block, `adj · S2 + b2` into the result. Every matrix product contracts a WHOLE axis in the axis's own order, on
  both sides, and a row of a product depends on that row of the left factor alone: cutting `adj` into row blocks
  regroups no sum. So on the extended reals the two programs compute the same function entry by entry
  (`Cert.Gcn.emb`), with no algebraic law needed and the inputs' finiteness never used.

  The frames name what the body carries between grid points (Proof/KI/Frame.lean for the idealized program, its
  instance Proof/K/Frame.lean for the word-level one); the kernel's result array is read off that run
  (Proof/KI/Value.lean) and the reference's off its generated run (Proof/RefValue.lean).
-/
import proofs.«164586_g31593779430026_cont_9to1_839_4_alg».proof.Defs
import proofs.«164586_g31593779430026_cont_9to1_839_4_alg».proof.Proof.Gen.Kernel
import proofs.«164586_g31593779430026_cont_9to1_839_4_alg».proof.Proof.Gen.KernelIdeal
import proofs.«164586_g31593779430026_cont_9to1_839_4_alg».proof.Proof.Gen.ReferenceIdeal
import proofs.«164586_g31593779430026_cont_9to1_839_4_alg».proof.Proof.Gen.Pre_finite_inputs
import proofs.«164586_g31593779430026_cont_9to1_839_4_alg».proof.Proof.K.Frame
import proofs.«164586_g31593779430026_cont_9to1_839_4_alg».proof.Proof.KI.Value
import proofs.«164586_g31593779430026_cont_9to1_839_4_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the six arguments both programs end with the specification of those arguments. -/
theorem algebraic : Cert.algebraic_KernelIdeal_ReferenceIdeal := by
  intro m ρ m' ρ' _ hagree
  refine ⟨fun c => Cert.GcnKernel.embOf m c, Cert.GcnKernel.run m ρ, ?_⟩
  refine (θ_run Cert.ReferenceIdeal.defs _ _).mono (fun _ h c => ⟨(h c).1.trans ?_, (h c).2⟩)
    (Cert.GcnRef.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
